-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S1x128 : Shape := ⟨2, ![1, 128]⟩
abbrev S800000 : Shape := ⟨1, ![800000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg4 : IVec S800000 32) (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  let main_c_6 : IVec S_ 32 := constantI S_ 32 0#32
  let main_v19 : IVec S800000 32 := broadcastInDim S800000 ![] bcast_S_S800000 main_c_6
  let main_v20 : IVec S800000 1 := cmpi .sge main_arg4 main_v19
  let main_c_7 : IVec S_ 1 := constantI S_ 1 1#1
  let main_v21 : IVec S_ 1 := (fun x v => Host.reduce IntOp.andi x v reducesTo_S800000_S_d0 h_S_) main_v20 main_c_7
  let main_v22 : IVec S_ 1 := andi main_v18 main_v21
  let main_c_8 : IVec S_ 32 := constantI S_ 32 50000#32
  let main_v23 : IVec S800000 32 := broadcastInDim S800000 ![] bcast_S_S800000 main_c_8
  let main_v24 : IVec S800000 1 := cmpi .slt main_arg4 main_v23
  let main_c_9 : IVec S_ 1 := constantI S_ 1 1#1
  let main_v25 : IVec S_ 1 := (fun x v => Host.reduce IntOp.andi x v reducesTo_S800000_S_d0 h_S_) main_v24 main_c_9
  let main_v26 : IVec S_ 1 := andi main_v22 main_v25
  main_v26

def fn {F : FTy → Type} [FloatOps F] (main_arg0 : FVec F S50000x128 .f32) (main_arg1 : FVec F S128x128 .f32) (main_arg2 : FVec F S1x128 .f32) (main_arg3 : IVec S800000 32) (main_arg4 : IVec S800000 32) (main_arg5 : FVec F S800000 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S800000 .f32 := Host.absf main_arg5
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S1x128 : Shape := ⟨2, ![1, 128]⟩
abbrev S800000 : Shape := ⟨1, ![800000]⟩
abbrev S2000x128 : Shape := ⟨2, ![2000, 128]⟩
abbrev S_ : Shape := ⟨0, ![]⟩
abbrev S50176x128 : Shape := ⟨2, ![50176, 128]⟩
abbrev S800768 : Shape := ⟨1, ![800768]⟩
abbrev S800768x1 : Shape := ⟨2, ![800768, 1]⟩
abbrev S1x800768 : Shape := ⟨2, ![1, 800768]⟩
abbrev S800768x128 : Shape := ⟨2, ![800768, 128]⟩
abbrev S2048x1 : Shape := ⟨2, ![2048, 1]⟩
abbrev S1024x128 : Shape := ⟨2, ![1024, 128]⟩
abbrev S2048x128 : Shape := ⟨2, ![2048, 128]⟩
abbrev S2048x1024 : Shape := ⟨2, ![2048, 1024]⟩
abbrev S1x2048 : Shape := ⟨2, ![1, 2048]⟩
abbrev S1024x1 : Shape := ⟨2, ![1024, 1]⟩
abbrev S1024x2048 : Shape := ⟨2, ![1024, 2048]⟩

abbrev nBuf : Space → Nat
  | .hbm => 25
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S1x128, .f32⟩
  | .hbm, ⟨3, _⟩ => ⟨S800000, .i32⟩
  | .hbm, ⟨4, _⟩ => ⟨S800000, .i32⟩
  | .hbm, ⟨5, _⟩ => ⟨S800000, .f32⟩
  | .hbm, ⟨6, _⟩ => ⟨S50000x128, .bf16⟩
  | .hbm, ⟨7, _⟩ => ⟨S_, .i32⟩
  | .hbm, ⟨8, _⟩ => ⟨S_, .bf16⟩
  | .hbm, ⟨9, _⟩ => ⟨S50176x128, .bf16⟩
  | .hbm, ⟨10, _⟩ => ⟨S_, .i32⟩
  | .hbm, ⟨11, _⟩ => ⟨S_, .i32⟩
  | .hbm, ⟨12, _⟩ => ⟨S800768, .i32⟩
  | .hbm, ⟨13, _⟩ => ⟨S800768x1, .i32⟩
  | .hbm, ⟨14, _⟩ => ⟨S_, .i32⟩
  | .hbm, ⟨15, _⟩ => ⟨S_, .f32⟩
  | .hbm, ⟨16, _⟩ => ⟨S800768, .f32⟩
  | .hbm, ⟨17, _⟩ => ⟨S800768x1, .f32⟩
  | .hbm, ⟨18, _⟩ => ⟨S_, .i32⟩
  | .hbm, ⟨19, _⟩ => ⟨S_, .i32⟩
  | .hbm, ⟨20, _⟩ => ⟨S800768, .i32⟩
  | .hbm, ⟨21, _⟩ => ⟨S1x800768, .i32⟩
  | .hbm, ⟨22, _⟩ => ⟨S800768x128, .f32⟩
  | .hbm, ⟨23, _⟩ => ⟨S50176x128, .f32⟩
  | .hbm, ⟨24, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .bf16⟩
  | .local _ .vmem, ⟨4, _⟩ => ⟨S2000x128, .bf16⟩
  | .local _ .vmem, ⟨5, _⟩ => ⟨S2048x1, .i32⟩
  | .local _ .vmem, ⟨6, _⟩ => ⟨S2048x1, .i32⟩
  | .local _ .vmem, ⟨7, _⟩ => ⟨S2048x1, .f32⟩
  | .local _ .vmem, ⟨8, _⟩ => ⟨S2048x1, .f32⟩
  | .local _ .vmem, ⟨9, _⟩ => ⟨S1024x128, .bf16⟩
  | .local _ .vmem, ⟨10, _⟩ => ⟨S1024x128, .bf16⟩
  | .local _ .vmem, ⟨11, _⟩ => ⟨S2048x128, .f32⟩
  | .local _ .vmem, ⟨12, _⟩ => ⟨S2048x128, .f32⟩
  | .local _ .vmem, ⟨13, _⟩ => ⟨S1x2048, .i32⟩
  | .local _ .vmem, ⟨14, _⟩ => ⟨S1x2048, .i32⟩
  | .local _ .vmem, ⟨15, _⟩ => ⟨S2048x128, .f32⟩
  | .local _ .vmem, ⟨16, _⟩ => ⟨S2048x128, .f32⟩
  | .local _ .vmem, ⟨17, _⟩ => ⟨S1x128, .f32⟩
  | .local _ .vmem, ⟨18, _⟩ => ⟨S1024x128, .f32⟩
  | .local _ .vmem, ⟨19, _⟩ => ⟨S1024x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_call2_v0 : Ref sig .tc := ⟨.hbm, 15, rfl⟩
abbrev main_v4 : Ref sig .tc := ⟨.hbm, 16, rfl⟩
abbrev main_v5 : Ref sig .tc := ⟨.hbm, 17, rfl⟩
abbrev main_c_2 : Ref sig .tc := ⟨.hbm, 18, rfl⟩
abbrev main_call3_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![391, 49], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![49, 391], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1x2048 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S2000x128_S2000x128_0_0 : (Rect.unit (s := S2000x128) ![0, 0] S2000x128.size inb_S2000x128_S2000x128_0_0).PackedRows (EltTy.packing .bf16)
  pads_S50000x128_S50176x128_01760_000 : S50000x128.Pads (![0, 0] : Fin 2 → Nat) ![176, 0] ![0, 0] S50176x128
  h_S_ : 0 < S_.numel
  pads_S800000_S800768_07680 : S800000.Pads (![0] : Fin 1 → Nat) ![768] ![0] S800768
  shapeCasts_S800768_S800768x1 : S800768.ShapeCasts S800768x1
  shapeCasts_S800768_S1x800768 : S800768.ShapeCasts S1x800768
  inb_S2048x128_S2048x128_0_0 : ∀ a, (![0, 0] : Fin 2 → Nat) a + S2048x128.size a ≤ S2048x128.size a
  h_S2048x128 : 0 < S2048x128.numel
  iota_S2048x1024_d1_w32 : S2048x1024.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x1024 : S2048x1.Broadcasts S2048x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  shapeCasts_S2048x128_S2048x128 : S2048x128.ShapeCasts S2048x128
  iota_S1024x1_d0_w32 : S1024x1.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  natLt_1_32 : 1 < 32
  inb_S1x128_S1x128_0_0 : ∀ a, (![0, 0] : Fin 2 → Nat) a + S1x128.size a ≤ S1x128.size a
  h_S1x128 : 0 < S1x128.numel
  broadcasts_S1x128_S1024x128 : S1x128.Broadcasts S1024x128
  slices_S50176x128_S50000x128_0_0 : S50176x128.Slices ![0, 0] S50000x128
  dot_S2000x128_S128x128_S2000x128_1_0_0_1_n_n_wf : DotDims.WF S2000x128 S128x128 S2000x128 [1] [0] [0] [1] [] []
  dot_S2048x1024_S1024x128_S2048x128_1_0_0_1_n_n_wf : DotDims.WF S2048x1024 S1024x128 S2048x128 [1] [0] [0] [1] [] []
  dot_S1024x2048_S2048x128_S1024x128_1_0_0_1_n_n_wf : DotDims.WF S1024x2048 S2048x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .bf16 = 32 ∨ (Rect.block (s := S50000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1.size a ≤ S800768x1.size a
  hwx1_0 : ∀ i : grid1.Coords, EltTy.bits .i32 = 32 ∨ (Rect.block (s := S800768x1) S2048x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x1.size a ≤ S800768x1.size a
  hwx1_1 : ∀ i : grid1.Coords, EltTy.bits .f32 = 32 ∨ (Rect.block (s := S800768x1) S2048x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S50176x128.size a
  hwx1_2 : ∀ i : grid1.Coords, EltTy.bits .bf16 = 32 ∨ (Rect.block (s := S50176x128) S1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x128.size a ≤ S800768x128.size a
  hwx1_3 : ∀ i : grid1.Coords, EltTy.bits .f32 = 32 ∨ (Rect.block (s := S800768x128) S2048x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x2048.size a ≤ S1x800768.size a
  hwx2_0 : ∀ i : grid2.Coords, EltTy.bits .i32 = 32 ∨ (Rect.block (s := S1x800768) S1x2048.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S800768x128.size a
  hwx2_1 : ∀ i : grid2.Coords, EltTy.bits .f32 = 32 ∨ (Rect.block (s := S800768x128) S2048x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S50176x128.size a
  hwx2_3 : ∀ i : grid2.Coords, EltTy.bits .f32 = 32 ∨ (Rect.block (s := S50176x128) S1024x128.size (cc2_transform_3 i) (hinb2_3 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2048x1024_S1024x128_S2048x128_1_0_0_1_n_n : DotDims S2048x1024 S1024x128 S2048x128 where
  lhsContracting := [1]
  rhsContracting := [0]
  lhsNonContracting := [0]
  rhsNonContracting := [1]
  lhsBatch := []
  rhsBatch := []
  wf := dot_S2048x1024_S1024x128_S2048x128_1_0_0_1_n_n_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S2048x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S2048x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S2048x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S1x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1024x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S1x128 : Shape := ⟨2, ![1, 128]⟩
abbrev S800000 : Shape := ⟨1, ![800000]⟩
abbrev S800000x1 : Shape := ⟨2, ![800000, 1]⟩
abbrev S_ : Shape := ⟨0, ![]⟩
abbrev S800000x128 : Shape := ⟨2, ![800000, 128]⟩

abbrev nBuf : Space → Nat
  | .hbm => 25
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S1x128, .f32⟩
  | .hbm, ⟨3, _⟩ => ⟨S800000, .i32⟩
  | .hbm, ⟨4, _⟩ => ⟨S800000, .i32⟩
  | .hbm, ⟨5, _⟩ => ⟨S800000, .f32⟩
  | .hbm, ⟨6, _⟩ => ⟨S50000x128, .f32⟩
  | .hbm, ⟨7, _⟩ => ⟨S800000x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x128, .f32⟩
  | .hbm, ⟨18, _⟩ => ⟨S800000x128, .f32⟩
  | .hbm, ⟨19, _⟩ => ⟨S_, .f32⟩
  | .hbm, ⟨20, _⟩ => ⟨S50000x128, .f32⟩
  | .hbm, ⟨21, _⟩ => ⟨S800000x1, .i32⟩
  | .hbm, ⟨22, _⟩ => ⟨S50000x128, .f32⟩
  | .hbm, ⟨23, _⟩ => ⟨S50000x128, .f32⟩
  | .hbm, ⟨24, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.Spec.lean ====
/-
  The graph convolution, stated entry by entry over the extended reals.

  A dense product  h = x · w  ([50000,128] by [128,128]); per edge e a message  vals e · h[cols e, :];  per node r the
  sum of the messages of the edges whose row number is r, plus the bias row.

  Two arrangements of it are written here.  One works on arrays padded to whole tiles — 50176 node rows (the extra
  rows of h are zero) and 800768 edges (the extra edges have row 0, column 0 and value 0) — and expresses both the
  look-up of a row of h and the selection of a node's edges by comparing index words for equality: a sum over ALL
  50176 table rows of the terms whose row number equals the column word, and a sum over ALL 800768 edges of the
  terms whose row word equals the node's number.  The other reads a row of h directly at the column word (a negative
  word first moved up by 50000, then read signed and clamped into 0 … 49999) and sums over the 800000 edges whose row
  word, read signed, is the node's number.  `kernelOut_eq_refOut` (in the module that proves it) says they agree
  when every column word is a node number.
-/
import Idealize.ShloMosaic.PureOps.Ideal
import Idealize.ShloMosaic.Lib.ValueIdx

noncomputable section

namespace Cert.Hand.Spec

open Idealize.ShloMosaic Idealize.ShloMosaic.ValueIdx

abbrev SNxD : Shape := ⟨2, ![50000, 128]⟩
abbrev SDxD : Shape := ⟨2, ![128, 128]⟩
abbrev S1xD : Shape := ⟨2, ![1, 128]⟩
abbrev SE : Shape := ⟨1, ![800000]⟩
abbrev SPxD : Shape := ⟨2, ![50176, 128]⟩
abbrev SQx1 : Shape := ⟨2, ![800768, 1]⟩
abbrev S1xQ : Shape := ⟨2, ![1, 800768]⟩
abbrev SQxD : Shape := ⟨2, ![800768, 128]⟩

/-- Entry (r, d) of the dense product x · w. -/
def dense (x : SNxD.Idx → EReal) (w : SDxD.Idx → EReal) (r : Fin 50000) (d : Fin 128) : EReal :=
  ∑ k : Fin 128, x (ix2 r k) * w (ix2 k d)

/-- The message of (padded) edge e, column d, by comparison: over all rows j of the padded table, the terms
    vals e · table[j, d] whose row number j is the edge's column word. -/
def gatherScale (cols : SQx1.Idx → BitVec 32) (vals : SQx1.Idx → EReal) (hp : SPxD.Idx → EReal)
    (e : Fin 800768) (d : Fin 128) : EReal :=
  ∑ j : Fin 50176, if cols (ix2 e (0 : Fin 1)) = BitVec.ofNat 32 j.val then vals (ix2 e (0 : Fin 1)) * hp (ix2 j d) else 0

/-- Entry (r, d) of the (padded) result, by comparison: over all padded edges e, the messages whose row word is the
    number r; then the bias row. -/
def scatterBias (rows : S1xQ.Idx → BitVec 32) (msgs : SQxD.Idx → EReal) (bias : S1xD.Idx → EReal)
    (r : Fin 50176) (d : Fin 128) : EReal :=
  (∑ e : Fin 800768, if rows (ix2 (0 : Fin 1) e) = BitVec.ofNat 32 r.val then msgs (ix2 e d) else 0) + bias (ix2 (0 : Fin 1) d)

/-- The column words padded with zeros to 800768, as a column. -/
def colsPad (cols : SE.Idx → BitVec 32) : SQx1.Idx → BitVec 32 :=
  fun i => if h : (i 0).val < 800000 then cols (ix1 ⟨(i 0).val, h⟩) else 0#32

/-- The edge values padded with zeros to 800768, as a column. -/
def valsPad (vals : SE.Idx → EReal) : SQx1.Idx → EReal :=
  fun i => if h : (i 0).val < 800000 then vals (ix1 ⟨(i 0).val, h⟩) else 0

/-- The row words padded with zeros to 800768, as a row. -/
def rowsPad (rows : SE.Idx → BitVec 32) : S1xQ.Idx → BitVec 32 :=
  fun i => if h : (i 1).val < 800000 then rows (ix1 ⟨(i 1).val, h⟩) else 0#32

/-- The dense product padded with zero rows to 50176 rows. -/
def densePad (x : SNxD.Idx → EReal) (w : SDxD.Idx → EReal) : SPxD.Idx → EReal :=
  fun i => if h : (i 0).val < 50000 then dense x w ⟨(i 0).val, h⟩ ⟨(i 1).val, idx2_lt1 i⟩ else 0

/-- All the messages, by comparison, over the padded arrays. -/
def msgsPad (x : SNxD.Idx → EReal) (w : SDxD.Idx → EReal) (cols : SE.Idx → BitVec 32) (vals : SE.Idx → EReal) :
    SQxD.Idx → EReal :=
  fun i => gatherScale (colsPad cols) (valsPad vals) (densePad x w) ⟨(i 0).val, idx2_lt0 i⟩ ⟨(i 1).val, idx2_lt1 i⟩

/-- THE TILED ARRANGEMENT: entry (r, d), r < 50000, of the padded result. -/
def kernelOut (x : SNxD.Idx → EReal) (w : SDxD.Idx → EReal) (bias : S1xD.Idx → EReal)
    (rows cols : SE.Idx → BitVec 32) (vals : SE.Idx → EReal) (r : Fin 50000) (d : Fin 128) : EReal :=
  scatterBias (rowsPad rows) (msgsPad x w cols vals) bias ⟨r.val, by have := r.isLt; omega⟩ d

/-- The table row a column word names when it is read directly: a negative word moved up by 50000, the result read
    signed and clamped into 0 … 49999. -/
def gatherRow (w : BitVec 32) : Fin 50000 :=
  ⟨min (Scalar.select (IntOp.cmpi .slt w 0#32) (IntOp.addi w 50000#32) w).toInt.toNat (50000 - 1), by omega⟩

/-- THE DIRECT ARRANGEMENT: entry (r, d): the messages  vals e · h[row named by cols e, d]  of the edges whose row
    word, read signed, is r, summed; then the bias row. -/
def refOut (x : SNxD.Idx → EReal) (w : SDxD.Idx → EReal) (bias : S1xD.Idx → EReal)
    (rows cols : SE.Idx → BitVec 32) (vals : SE.Idx → EReal) (r : Fin 50000) (d : Fin 128) : EReal :=
  (∑ e : Fin 800000, if (rows (ix1 e)).toInt = (r.val : ℤ) then vals (ix1 e) * dense x w (gatherRow (cols (ix1 e))) d else 0)
    + bias (ix2 (0 : Fin 1) d)

end Cert.Hand.Spec

end
-- ==== Proof.Bridge.lean ====
/-
  The two arrangements of the graph convolution agree when every column word is a node number.

  The tiled arrangement looks a table row up by comparing the column word with all 50176 row numbers: a column word
  w with 0 ≤ w < 50000 equals exactly one of them, its own value, so the sum of comparison terms is the single term
  vals e · h[w, d]; the direct arrangement reads that same row (a nonnegative word is not moved, and below 50000 it
  is not clamped).  A padded edge carries value 0 and column 0, so its message is 0 · h[0, d] = 0 — on the extended
  reals 0 · x = 0 for every x, infinite or not — and the 768 padded edges add nothing to any node.  The node's own
  edges are selected in the tiled arrangement by equality of words with the node's number r < 50000, in the direct
  one by the signed value of the row word being r: the same condition, since a word whose signed value is a number
  below 2³¹ is that number's word.
-/
import proofs.«422335_j38611755991786_1_alg».proof.Proof.Spec
import Idealize.ShloMosaic.Lib.StableHlo.Predicate
import Mathlib.Algebra.BigOperators.Fin

noncomputable section

namespace Cert.Hand.Bridge

open Idealize.ShloMosaic Idealize.ShloMosaic.ValueIdx Cert.Hand.Spec

/-- A sum over n + k positions whose last k terms vanish is the sum over the first n. -/
theorem sum_fin_pad {M : Type*} [AddCommMonoid M] (n k : ℕ) (f : Fin (n + k) → M)
    (h : ∀ i : Fin k, f (Fin.natAdd n i) = 0) : ∑ i, f i = ∑ i : Fin n, f (Fin.castAdd k i) := by
  rw [Fin.sum_univ_add, Finset.sum_eq_zero (fun i _ => h i), add_zero]

/-! ## Words that are node numbers -/

/-- A word whose signed value lies in 0 … 49999 has that value unsigned too. -/
theorem toNat_of_range {w : BitVec 32} (h0 : 0 ≤ w.toInt) (h1 : w.toInt < 50000) :
    w.toNat < 50000 ∧ w.toInt = (w.toNat : ℤ) := by
  have hlt := w.isLt
  have key : w.toInt = if 2 * w.toNat < 2 ^ 32 then (w.toNat : ℤ) else (w.toNat : ℤ) - 2 ^ 32 :=
    BitVec.toInt_eq_toNat_cond w
  by_cases hc : 2 * w.toNat < 2 ^ 32
  · rw [if_pos hc] at key; constructor <;> omega
  · rw [if_neg hc] at key; exfalso; omega

/-- Read directly, such a word names the table row of its own value: it is not negative, so it is not moved, and it
    is below 50000, so it is not clamped. -/
theorem gatherRow_val {w : BitVec 32} (h0 : 0 ≤ w.toInt) (h1 : w.toInt < 50000) : (gatherRow w).val = w.toNat := by
  obtain ⟨hn, hi⟩ := toNat_of_range h0 h1
  have hs : IntOp.cmpi .slt w 0#32 = 0#1 := by
    have : w.slt 0#32 = false := by
      rw [BitVec.slt_eq_decide]
      simpa using h0
    show BitVec.ofBool (w.slt 0#32) = 0#1
    rw [this]; rfl
  show min (Scalar.select (IntOp.cmpi .slt w 0#32) (IntOp.addi w 50000#32) w).toInt.toNat (50000 - 1) = w.toNat
  rw [hs, select_zero, hi, Int.toNat_natCast]
  omega

/-- The word of a number below 2³¹ is the only word with that signed value. -/
theorem eq_ofNat_iff_toInt (w : BitVec 32) (r : ℕ) (hr : r < 2 ^ 31) :
    w = BitVec.ofNat 32 r ↔ w.toInt = (r : ℤ) := by
  rw [← BitVec.toInt_inj, StableHlo.Predicate.toInt_ofNat_small r hr]

/-! ## The padded arrays at an entry -/

theorem colsPad_real (cols : SE.Idx → BitVec 32) (e : Fin 800000) (h : e.val < 800768) :
    colsPad cols (ix2 (⟨e.val, h⟩ : Fin 800768) (0 : Fin 1)) = cols (ix1 e) := by
  unfold colsPad
  exact dif_pos e.isLt

theorem valsPad_real (vals : SE.Idx → EReal) (e : Fin 800000) (h : e.val < 800768) :
    valsPad vals (ix2 (⟨e.val, h⟩ : Fin 800768) (0 : Fin 1)) = vals (ix1 e) := by
  unfold valsPad
  exact dif_pos e.isLt

theorem rowsPad_real (rows : SE.Idx → BitVec 32) (e : Fin 800000) (h : e.val < 800768) :
    rowsPad rows (ix2 (0 : Fin 1) (⟨e.val, h⟩ : Fin 800768)) = rows (ix1 e) := by
  unfold rowsPad
  exact dif_pos e.isLt

theorem colsPad_pad (cols : SE.Idx → BitVec 32) (e : Fin 800768) (h : 800000 ≤ e.val) :
    colsPad cols (ix2 e (0 : Fin 1)) = 0#32 := by
  unfold colsPad
  exact dif_neg (Nat.not_lt.mpr h)

theorem valsPad_pad (vals : SE.Idx → EReal) (e : Fin 800768) (h : 800000 ≤ e.val) :
    valsPad vals (ix2 e (0 : Fin 1)) = 0 := by
  unfold valsPad
  exact dif_neg (Nat.not_lt.mpr h)

theorem densePad_real (x : SNxD.Idx → EReal) (w : SDxD.Idx → EReal) (j : Fin 50176) (d : Fin 128) (h : j.val < 50000) :
    densePad x w (ix2 j d) = dense x w ⟨j.val, h⟩ d := by
  unfold densePad
  exact dif_pos h

theorem msgsPad_apply (x : SNxD.Idx → EReal) (w : SDxD.Idx → EReal) (cols : SE.Idx → BitVec 32) (vals : SE.Idx → EReal)
    (e : Fin 800768) (d : Fin 128) :
    msgsPad x w cols vals (ix2 e d) = gatherScale (colsPad cols) (valsPad vals) (densePad x w) e d := rfl

/-! ## The messages -/

/-- A real edge's message: the comparison sum is its one term, the edge's value times the table row its column
    word names. -/
theorem msgs_real (x : SNxD.Idx → EReal) (w : SDxD.Idx → EReal) (cols : SE.Idx → BitVec 32) (vals : SE.Idx → EReal)
    (e : Fin 800000) (h0 : 0 ≤ (cols (ix1 e)).toInt) (h1 : (cols (ix1 e)).toInt < 50000) (he : e.val < 800768) (d : Fin 128) :
    msgsPad x w cols vals (ix2 (⟨e.val, he⟩ : Fin 800768) d) = vals (ix1 e) * dense x w (gatherRow (cols (ix1 e))) d := by
  obtain ⟨hn, hi⟩ := toNat_of_range h0 h1
  have hj : (cols (ix1 e)).toNat < 50176 := by omega
  rw [msgsPad_apply]
  unfold gatherScale
  rw [colsPad_real cols e he, valsPad_real vals e he]
  rw [Finset.sum_eq_single (⟨(cols (ix1 e)).toNat, hj⟩ : Fin 50176)]
  · rw [if_pos (by simp), densePad_real x w _ d hn]
    exact congrArg (fun q => vals (ix1 e) * dense x w q d) (Fin.ext (gatherRow_val h0 h1).symm)
  · intro j _ hne
    refine if_neg fun heq => hne (Fin.ext ?_)
    have := congrArg BitVec.toNat heq
    rw [BitVec.toNat_ofNat, Nat.mod_eq_of_lt (by have := j.isLt; omega)] at this
    exact this.symm
  · intro hno
    exact absurd (Finset.mem_univ _) hno

/-- A padded edge's message is zero: every comparison term carries the padded value 0. -/
theorem msgs_pad (x : SNxD.Idx → EReal) (w : SDxD.Idx → EReal) (cols : SE.Idx → BitVec 32) (vals : SE.Idx → EReal)
    (e : Fin 800768) (h : 800000 ≤ e.val) (d : Fin 128) :
    msgsPad x w cols vals (ix2 e d) = 0 := by
  rw [msgsPad_apply]
  unfold gatherScale
  rw [valsPad_pad vals e h]
  refine Finset.sum_eq_zero fun j _ => ?_
  rw [zero_mul, ite_self]

/-! ## The two arrangements agree -/

theorem kernelOut_eq_refOut (x : SNxD.Idx → EReal) (w : SDxD.Idx → EReal) (bias : S1xD.Idx → EReal)
    (rows cols : SE.Idx → BitVec 32) (vals : SE.Idx → EReal)
    (hc : ∀ e : Fin 800000, 0 ≤ (cols (ix1 e)).toInt ∧ (cols (ix1 e)).toInt < 50000) (r : Fin 50000) (d : Fin 128) :
    kernelOut x w bias rows cols vals r d = refOut x w bias rows cols vals r d := by
  unfold kernelOut refOut scatterBias
  refine congrArg (· + bias (ix2 (0 : Fin 1) d)) ?_
  have hr31 : r.val < 2 ^ 31 := by have := r.isLt; omega
  rw [sum_fin_pad 800000 768 (fun e : Fin (800000 + 768) =>
      if rowsPad rows (ix2 (0 : Fin 1) e) = BitVec.ofNat 32 r.val then msgsPad x w cols vals (ix2 e d) else 0)
    (fun i => by
      show (if _ then msgsPad x w cols vals (ix2 (Fin.natAdd 800000 i) d) else 0) = 0
      rw [msgs_pad x w cols vals (Fin.natAdd 800000 i) (by show 800000 ≤ 800000 + i.val; omega) d, ite_self])]
  refine Finset.sum_congr rfl fun e _ => ?_
  have he : e.val < 800768 := by have := e.isLt; omega
  show (if rowsPad rows (ix2 (0 : Fin 1) (⟨e.val, he⟩ : Fin 800768)) = BitVec.ofNat 32 r.val
      then msgsPad x w cols vals (ix2 (⟨e.val, he⟩ : Fin 800768) d) else 0) = _
  rw [rowsPad_real rows e he, msgs_real x w cols vals e (hc e).1 (hc e).2 he d]
  exact if_congr (eq_ofNat_iff_toInt _ _ hr31) rfl rfl

end Cert.Hand.Bridge

end
-- ==== Proof.LibPlainDot.lean ====
/-
  A matrix product with one contracted axis, read at an entry.

  For a rank-two by rank-two product whose dimension numbers are the plain ones — the left operand's columns
  contracted with the right operand's rows, no batch axis — the operand indices at result entry (r, c) and
  contraction position k are (r, k) and (k, c). So, over the extended reals, a product accumulated into the zero
  array, and a host dot_general, are both the finite sum  ∑ k, lhs (r, k) * rhs (k, c)  over k below the contracted
  extent. Everything is stated for ANY dimension record of that form, whatever its extents.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat}

/-- The dimension numbers of an M×K by K×N product: columns against rows, nothing batched. -/
structure IsPlain (d : DotDims (⟨2, ![M, K]⟩ : Shape) (⟨2, ![K, N]⟩ : Shape) (⟨2, ![M, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![M, K]⟩ : Shape) (⟨2, ![K, N]⟩ : Shape) (⟨2, ![M, N]⟩ : Shape)}

theorem IsPlain.rank_contr (h : IsPlain d) : d.contr.rank = 1 := by
  rw [d.rank_contr, h.lc]; rfl

theorem IsPlain.size_contr (h : IsPlain d) : d.contr.size ⟨0, by rw [h.rank_contr]; exact Nat.one_pos⟩ = K := by
  have e := d.size_contr 0 (by rw [h.lc]; exact Nat.one_pos)
  rw [e]
  simp only [h.lc, List.getElem_cons_zero]
  rfl

/-- The left operand's row is the result's row. -/
theorem IsPlain.lhs_row (h : IsPlain d) (j : (⟨2, ![M, N]⟩ : Shape).Idx) (k : d.contr.Idx) :
    (d.lhsIdx j k 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln])

/-- The left operand's column is the contraction position. -/
theorem IsPlain.lhs_col (h : IsPlain d) (j : (⟨2, ![M, N]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem IsPlain.rhs_row (h : IsPlain d) (j : (⟨2, ![M, N]⟩ : Shape).Idx) (k : d.contr.Idx) :
    (d.rhsIdx j k 0).val = (k ⟨0, by rw [h.rank_contr]; exact Nat.one_pos⟩).val :=
  d.rhsIdx_val_of_single h.rc j k

/-- The right operand's column is the result's column. -/
theorem IsPlain.rhs_col (h : IsPlain d) (j : (⟨2, ![M, N]⟩ : Shape).Idx) (k : d.contr.Idx) :
    (d.rhsIdx j k 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  have key : ∀ (p q : Nat) (hp : p < (⟨2, ![M, N]⟩ : Shape).rank) (hq : q < (⟨2, ![M, N]⟩ : Shape).rank), p = q →
      (j ⟨p, hp⟩).val = (j ⟨q, hq⟩).val := fun p q hp hq e => by subst e; rfl
  exact key _ _ _ _ (by simp [h.lb, h.ln, h.rn])

/-- The sum over the contraction shape's positions, re-indexed by the one coordinate: the entry (r, c) of the
    product is the sum over k of the left operand's (r, k) times the right operand's (k, c). -/
theorem IsPlain.sum_contr (h : IsPlain d) {α : Type} [AddCommMonoid α] [Mul α]
    (lhs : (⟨2, ![M, K]⟩ : Shape).Idx → α) (rhs : (⟨2, ![K, N]⟩ : Shape).Idx → α) (r : Fin M) (c : Fin N) :
    ∑ k : d.contr.Idx, lhs (d.lhsIdx (ix2 r c) k) * rhs (d.rhsIdx (ix2 r c) k)
      = ∑ k : Fin K, lhs (ix2 r k) * rhs (ix2 k c) := by
  rw [← Equiv.sum_comp (contrEquiv1 d K h.rank_contr h.size_contr).symm]
  refine Finset.sum_congr rfl fun k _ => ?_
  have hk := contrEquiv1_symm_val d K h.rank_contr h.size_contr k
  have el : d.lhsIdx (ix2 r c) ((contrEquiv1 d K h.rank_contr h.size_contr).symm k) = ix2 r k :=
    funext fun a => Fin.ext (by
      match a with
      | ⟨0, _⟩ => exact h.lhs_row _ _
      | ⟨1, _⟩ => exact (h.lhs_col _ _).trans hk)
  have er : d.rhsIdx (ix2 r c) ((contrEquiv1 d K h.rank_contr h.size_contr).symm k) = ix2 k c :=
    funext fun a => Fin.ext (by
      match a with
      | ⟨0, _⟩ => exact (h.rhs_row _ _).trans hk
      | ⟨1, _⟩ => exact h.rhs_col _ _)
  rw [el, er]

/-- A kernel's product into the zero accumulator, over the extended reals, at entry (r, c). -/
theorem IsPlain.matmul_zero_apply (h : IsPlain d) {φ₁ φ₂ : FTy} (prec : Option ContractPrecision)
    (lhs : FVec Ideal (⟨2, ![M, K]⟩ : Shape) φ₁) (rhs : FVec Ideal (⟨2, ![K, N]⟩ : Shape) φ₂) (r : Fin M) (c : Fin N) :
    FloatOps.matmul d prec lhs rhs (constant (⟨2, ![M, N]⟩ : Shape) .f32 0x00000000#32) (ix2 r c)
      = ∑ k : Fin K, lhs (ix2 r k) * rhs (ix2 k c) := by
  rw [Ideal.matmul_constant_zero_apply]
  exact h.sum_contr lhs rhs r c

/-- A host dot_general, over the extended reals, at entry (r, c). -/
theorem IsPlain.dotGeneral_apply (h : IsPlain d) {φ₁ φ₂ : FTy} (prec : Option ContractPrecision) (sched : HostSchedule)
    (lhs : FVec Ideal (⟨2, ![M, K]⟩ : Shape) φ₁) (rhs : FVec Ideal (⟨2, ![K, N]⟩ : Shape) φ₂) (r : Fin M) (c : Fin N) :
    FloatOps.dotGeneral d prec sched lhs rhs (ix2 r c) = ∑ k : Fin K, lhs (ix2 r k) * rhs (ix2 k c) := by
  rw [Ideal.dotGeneral_apply]
  exact h.sum_contr lhs rhs r c

end Idealize.ShloMosaic.PlainDot

end
-- ==== Proof.Region0.lean ====
/-
  The first stage of the graph convolution: the dense product  h = x · w.

  The stage works on blocks of 2000 rows. At each of its 25 points it takes rows 2000·t … 2000·t + 1999 of x and the
  whole of w, multiplies them into a zero accumulator and writes the product to the same rows of the result. Over the
  extended reals the roundings are identities, so the block written at point t is the restriction to those rows of ONE
  function of the whole arrays: entry (r, d) is  ∑ k, x (r, k) · w (k, d).  The 25 row blocks fill the 50000 rows, so
  the result array ends holding that function everywhere.
-/
import proofs.«422335_j38611755991786_1_alg».proof.Proof.Gen.KernelIdeal.Frame
import proofs.«422335_j38611755991786_1_alg».proof.Proof.Spec
import proofs.«422335_j38611755991786_1_alg».proof.Proof.LibPlainDot
import Idealize.ShloMosaic.Lib.Pipeline.Value
import Idealize.ShloMosaic.Lib.ValueIdx

set_option maxRecDepth 16384

noncomputable section

namespace Cert.Hand.Region0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- A block's own origin, as a constant function. -/
theorem origin : (![0, 0] : Fin 2 → Nat) = fun _ => 0 := funext fun a => by fin_cases a <;> rfl

/-- The product's dimension numbers are the plain ones: columns against rows, nothing batched. -/
theorem plain : PlainDot.IsPlain (M := 2000) (K := 128) (N := 128) dot_S2000x128_S128x128_S2000x128_1_0_0_1_n_n :=
  ⟨rfl, rfl, rfl, rfl, rfl, rfl⟩

/-- What one point computes from its two blocks, at an entry: the roundings are identities over the extended reals,
    and a product into the zero accumulator is the finite sum over the contracted axis. -/
theorem pay_apply (x0 : Vec Ideal S2000x128 .f32) (x1 : Vec Ideal S128x128 .f32) (p : Fin 2000) (q : Fin 128) :
    k0_pay1 x0 x1 (ix2 p q) = ∑ k : Fin 128, x0 (ix2 p k) * x1 (ix2 k q) := by
  unfold k0_pay1
  exact plain.matmul_zero_apply none _ _ p q

/-- Where the blocks sit: at point t the block of x and the block of the result are both row block t (column block 0),
    and the block of w is always the whole of w. -/
theorem block_places : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 2) = t.val ∧ win0_2.index t (1 : Fin 2) = 0 :=
  (by decide +kernel : ∀ t : Fin grid0.N, _)

/-- The dense product as one function of the whole arrays, over the result array's indices. -/
abbrev product (c : Dev nD) : S50000x128.Idx → EReal :=
  fun i => Spec.dense (V c main_arg0) (V c main_arg1) ⟨(i 0).val, idx2_lt0 i⟩ ⟨(i 1).val, idx2_lt1 i⟩

/-- Entry j of what point t computes is the dense product at the place of the result that entry j of block t is:
    row 2000·t + j₀ of x is entry j₀ of its block, and w's block is w. -/
theorem block_apply (c : Dev nD) (t : Fin cfg0.N) (j : S2000x128.Idx) :
    k0_pay1 (iblk0 V c 0 t) (iblk0 V c 1 t) j = product V c (((cfg0.win 2).blk t).view.emb j) := by
  obtain ⟨p, q, rfl⟩ : ∃ p q, j = ix2 p q := ⟨j 0, j 1, eq_ix2 j⟩
  rw [pay_apply]
  obtain ⟨e0, e1, e2, e3, e4, e5⟩ := block_places t
  unfold product Spec.dense
  refine Finset.sum_congr rfl fun k _ => ?_
  congr 1
  · unfold iblk0
    rw [View.read_apply]
    show V c main_arg0 (((cfg0.win 0).blk t).view.emb (ix2 p k)) = V c main_arg0 _
    congr 1
    funext a
    apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * k.val = k.val; omega
  · unfold iblk0
    rw [View.read_apply]
    show V c main_arg1 (((cfg0.win 1).blk t).view.emb (ix2 k q)) = V c main_arg1 _
    congr 1
    funext a
    apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega

/-- What point t writes back is block t of the dense product. -/
theorem flushed_eq (c : Dev nD) (t : Fin cfg0.N) :
    (dat0 (F := Ideal) V c).flushed 2 t = ((cfg0.win 2).blk t).view.read (Elt Ideal) (product V c) := by
  show (cfg0.win 2).cut (grid0.coords t) ((dat0 V c).after 2 t) = _
  rw [after0_2]
  unfold out0_2
  rw [View.canon_unit_zero origin]
  simp only [View.ld_unit_zero (S := S2000x128) origin, View.ld_unit_zero (S := S128x128) origin]
  funext j
  exact block_apply V c t j

/-- An index of the result is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- The row blocks fill the result: row r is in the block of point r / 2000, and every point writes its block back. -/
theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by omega⟩, rfl⟩
  obtain ⟨-, -, -, -, e4, e5⟩ := block_places t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The result array after the stage is the dense product. -/
theorem array (c : Dev nD) : (dat0 (F := Ideal) V c).arrAt 2 cfg0.N = product V c :=
  (dat0 V c).arrAt_eq_of_cover 2 (product V c) (fun t _ => flushed_eq V c t) cover

/-- Entry (r, d) of the result array after the stage is entry (r, d) of x · w. -/
theorem value (c : Dev nD) (r : Fin 50000) (d : Fin 128) :
    (dat0 (F := Ideal) V c).arrAt 2 cfg0.N (ix2 r d) = Spec.dense (V c main_arg0) (V c main_arg1) r d := by
  rw [array]

end Cert.Hand.Region0

end
-- ==== Proof.LibBlockSum.lean ====
import Mathlib.Algebra.BigOperators.Fin
import Mathlib.Data.Fintype.BigOperators
import Mathlib.Logic.Equiv.Fin.Basic

/-! # Sums accumulated step by step, and a contraction cut into blocks

A block-wise matrix product accumulates, over KB steps, the partial sums of one entry: step `kb` adds the sum over
the TK contraction positions of block `kb`. Here: an accumulator defined by "first term, then add the next term" is
the sum of the terms so far; a sum over KB blocks of TK positions each is the sum over all KB · TK positions; and,
together, the accumulator after the last step is the whole contraction sum. All in any commutative additive monoid
(the extended reals are one: no finiteness is used). -/

namespace Cert.Hand.BlockSum

variable {M : Type*} [AddCommMonoid M]

/-! ## The accumulator is the sum of the terms so far -/

/-- An accumulator that starts at the first term and adds the next term at each step holds, after step `n`, the sum
    of the terms `0 … n`. The recurrence is asked only below a bound `K` (the number of steps). -/
theorem acc_eq_sum_range_of_lt (K : ℕ) (p acc : ℕ → M) (h0 : acc 0 = p 0)
    (hs : ∀ n, n + 1 < K → acc (n + 1) = acc n + p (n + 1)) (n : ℕ) (hn : n < K) :
    acc n = ∑ i ∈ Finset.range (n + 1), p i := by
  induction n with
  | zero => rw [h0, Finset.sum_range_one]
  | succ n ih => rw [hs n hn, ih (Nat.lt_of_succ_lt hn), Finset.sum_range_succ p (n + 1)]

/-- The same with the recurrence at every step. -/
theorem acc_eq_sum_range (p acc : ℕ → M) (h0 : acc 0 = p 0)
    (hs : ∀ n, acc (n + 1) = acc n + p (n + 1)) (n : ℕ) :
    acc n = ∑ i ∈ Finset.range (n + 1), p i :=
  acc_eq_sum_range_of_lt (n + 1) p acc h0 (fun m _ => hs m) n (Nat.lt_succ_self n)

/-- The same for an accumulator reset to zero before the first term is added: `acc 0 = 0 + p 0`. -/
theorem acc_eq_sum_range_of_lt_zero_add (K : ℕ) (p acc : ℕ → M) (h0 : acc 0 = 0 + p 0)
    (hs : ∀ n, n + 1 < K → acc (n + 1) = acc n + p (n + 1)) (n : ℕ) (hn : n < K) :
    acc n = ∑ i ∈ Finset.range (n + 1), p i :=
  acc_eq_sum_range_of_lt K p acc (h0.trans (zero_add _)) hs n hn

theorem acc_eq_sum_range_zero_add (p acc : ℕ → M) (h0 : acc 0 = 0 + p 0)
    (hs : ∀ n, acc (n + 1) = acc n + p (n + 1)) (n : ℕ) :
    acc n = ∑ i ∈ Finset.range (n + 1), p i :=
  acc_eq_sum_range p acc (h0.trans (zero_add _)) hs n

/-- A sum over the first `n` naturals is the sum over `Fin n`. -/
theorem sum_range_eq_sum_fin (p : ℕ → M) (n : ℕ) : ∑ i ∈ Finset.range n, p i = ∑ i : Fin n, p i.val :=
  (Fin.sum_univ_eq_sum_range p n).symm

/-- The accumulator after step `n` as a sum over `Fin (n + 1)`. -/
theorem acc_eq_sum_fin_of_lt (K : ℕ) (p acc : ℕ → M) (h0 : acc 0 = p 0)
    (hs : ∀ n, n + 1 < K → acc (n + 1) = acc n + p (n + 1)) (n : ℕ) (hn : n < K) :
    acc n = ∑ i : Fin (n + 1), p i.val :=
  (acc_eq_sum_range_of_lt K p acc h0 hs n hn).trans (sum_range_eq_sum_fin p (n + 1))

theorem acc_eq_sum_fin (p acc : ℕ → M) (h0 : acc 0 = p 0)
    (hs : ∀ n, acc (n + 1) = acc n + p (n + 1)) (n : ℕ) :
    acc n = ∑ i : Fin (n + 1), p i.val :=
  (acc_eq_sum_range p acc h0 hs n).trans (sum_range_eq_sum_fin p (n + 1))

theorem acc_eq_sum_fin_of_lt_zero_add (K : ℕ) (p acc : ℕ → M) (h0 : acc 0 = 0 + p 0)
    (hs : ∀ n, n + 1 < K → acc (n + 1) = acc n + p (n + 1)) (n : ℕ) (hn : n < K) :
    acc n = ∑ i : Fin (n + 1), p i.val :=
  acc_eq_sum_fin_of_lt K p acc (h0.trans (zero_add _)) hs n hn

/-- After the last of `K` steps: the sum of all `K` terms. -/
theorem acc_last_eq_sum_fin (K : ℕ) (hK : 0 < K) (p acc : ℕ → M) (h0 : acc 0 = p 0)
    (hs : ∀ n, n + 1 < K → acc (n + 1) = acc n + p (n + 1)) :
    acc (K - 1) = ∑ i : Fin K, p i.val := by
  obtain ⟨k, rfl⟩ : ∃ k, K = k + 1 := ⟨K - 1, by omega⟩
  exact acc_eq_sum_fin_of_lt (k + 1) p acc h0 hs k (Nat.lt_succ_self k)

/-! ## A contraction cut into blocks -/

/-- Position `kk` of block `kb` is a position of the whole contraction. -/
theorem block_lt {KB TK : ℕ} (kb : Fin KB) (kk : Fin TK) : kb.val * TK + kk.val < KB * TK :=
  calc kb.val * TK + kk.val < kb.val * TK + TK := Nat.add_lt_add_left kk.isLt _
    _ = (kb.val + 1) * TK := (Nat.succ_mul _ _).symm
    _ ≤ KB * TK := Nat.mul_le_mul_right _ kb.isLt

/-- Summing block by block is summing over all positions: position `kk` of block `kb` is `kb · TK + kk`. -/
theorem sum_blocks (KB TK : ℕ) (f : Fin (KB * TK) → M) :
    ∑ kb : Fin KB, ∑ kk : Fin TK, f ⟨kb.val * TK + kk.val, block_lt kb kk⟩ = ∑ k : Fin (KB * TK), f k := by
  rw [← Equiv.sum_comp (finProdFinEquiv (m := KB) (n := TK)) f, Fintype.sum_prod_type]
  refine Finset.sum_congr rfl fun kb _ => Finset.sum_congr rfl fun kk _ => congrArg f (Fin.ext ?_)
  show kb.val * TK + kk.val = kk.val + TK * kb.val
  rw [Nat.mul_comm, Nat.add_comm]

/-- The same at a literal extent `N = KB · TK` (for example 4 blocks of 512 at `Fin 2048`, 8 blocks of 512 at
    `Fin 4096`: `hN` is `rfl` or `by decide`); the bound on `kb · TK + kk` may be any proof `hlt`. -/
theorem sum_blocks_cast (KB TK N : ℕ) (hN : KB * TK = N) (f : Fin N → M)
    (hlt : ∀ (kb : Fin KB) (kk : Fin TK), kb.val * TK + kk.val < N := fun kb kk => hN ▸ block_lt kb kk) :
    ∑ kb : Fin KB, ∑ kk : Fin TK, f ⟨kb.val * TK + kk.val, hlt kb kk⟩ = ∑ k : Fin N, f k := by
  subst hN
  exact sum_blocks KB TK f

/-- The same for a function of the position as a natural number. -/
theorem sum_blocks_nat (KB TK : ℕ) (g : ℕ → M) :
    ∑ kb : Fin KB, ∑ kk : Fin TK, g (kb.val * TK + kk.val) = ∑ k : Fin (KB * TK), g k.val :=
  sum_blocks KB TK fun k => g k.val

theorem sum_blocks_nat_cast (KB TK N : ℕ) (hN : KB * TK = N) (g : ℕ → M) :
    ∑ kb : Fin KB, ∑ kk : Fin TK, g (kb.val * TK + kk.val) = ∑ k : Fin N, g k.val := by
  subst hN
  exact sum_blocks_nat KB TK g

/-- Four blocks of 512 positions are the 2048 positions. -/
theorem sum_blocks_4_512 (f : Fin 2048 → M) (hlt : ∀ (kb : Fin 4) (kk : Fin 512), kb.val * 512 + kk.val < 2048 := fun kb kk => by omega) :
    ∑ kb : Fin 4, ∑ kk : Fin 512, f ⟨kb.val * 512 + kk.val, hlt kb kk⟩ = ∑ k : Fin 2048, f k :=
  sum_blocks_cast 4 512 2048 rfl f hlt

/-- Eight blocks of 512 positions are the 4096 positions. -/
theorem sum_blocks_8_512 (f : Fin 4096 → M) (hlt : ∀ (kb : Fin 8) (kk : Fin 512), kb.val * 512 + kk.val < 4096 := fun kb kk => by omega) :
    ∑ kb : Fin 8, ∑ kk : Fin 512, f ⟨kb.val * 512 + kk.val, hlt kb kk⟩ = ∑ k : Fin 4096, f k :=
  sum_blocks_cast 8 512 4096 rfl f hlt

/-! ## Both: the accumulator after the last step is the whole contraction sum -/

/-- An accumulator whose step `kb` adds the sum over block `kb`'s TK positions (`hp`), started at the first
    block's sum, holds after the last of the KB steps the sum over all `N = KB · TK` positions. -/
theorem acc_last_eq_sum_blocks (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = p 0) (hs : ∀ n, n + 1 < KB → acc (n + 1) = acc n + p (n + 1)) :
    acc (KB - 1) = ∑ k : Fin N, f k := by
  rw [acc_last_eq_sum_fin KB hKB p acc h0 hs, ← sum_blocks_cast KB TK N hN f hlt]
  exact Finset.sum_congr rfl fun kb _ => hp kb

/-- The same for an accumulator reset to zero before the first block's sum is added. -/
theorem acc_last_eq_sum_blocks_zero_add (KB TK N : ℕ) (hN : KB * TK = N) (hKB : 0 < KB) (f : Fin N → M) (p acc : ℕ → M)
    (hlt : ∀ (kb : Fin KB) (kk : Fin TK), kb.val * TK + kk.val < N)
    (hp : ∀ kb : Fin KB, p kb.val = ∑ kk : Fin TK, f ⟨kb.val * TK + kk.val, hlt kb kk⟩)
    (h0 : acc 0 = 0 + p 0) (hs : ∀ n, n + 1 < KB → acc (n + 1) = acc n + p (n + 1)) :
    acc (KB - 1) = ∑ k : Fin N, f k :=
  acc_last_eq_sum_blocks KB TK N hN hKB f p acc hlt hp (h0.trans (zero_add _)) hs

/-- The same with the block sums written out in the recurrence: no intermediate `p`. -/
theorem acc_last_eq_sum_blocks' (KB TK N : ℕ) (hN : KB * TK = N) (hKB : 0 < KB) (f : Fin N → M) (acc : ℕ → M)
    (hlt : ∀ (kb : Fin KB) (kk : Fin TK), kb.val * TK + kk.val < N)
    (h0 : acc 0 = ∑ kk : Fin TK, f ⟨(⟨0, hKB⟩ : Fin KB).val * TK + kk.val, hlt ⟨0, hKB⟩ kk⟩)
    (hs : ∀ n (h : n + 1 < KB), acc (n + 1) = acc n + ∑ kk : Fin TK, f ⟨(⟨n + 1, h⟩ : Fin KB).val * TK + kk.val, hlt ⟨n + 1, h⟩ kk⟩) :
    acc (KB - 1) = ∑ k : Fin N, f k := by
  refine acc_last_eq_sum_blocks KB TK N hN hKB f
    (fun n => if h : n < KB then ∑ kk : Fin TK, f ⟨(⟨n, h⟩ : Fin KB).val * TK + kk.val, hlt ⟨n, h⟩ kk⟩ else 0) acc hlt
    (fun kb => by rw [dif_pos kb.isLt]) (by rw [h0, dif_pos hKB]) (fun n h => by rw [hs n h, dif_pos h])

/-! ## Steps numbered through all blocks

The grid numbers its points through: point `t` is step `t % K` of block `t / K`. At a block's first step the
accumulator restarts, at the others it adds to what the point before left. -/

/-- With K steps per block, the accumulator restarted at each block's first step (`t % K = 0`) and adding the
    step's term to what step `t - 1` left otherwise holds, after step `t`, the sum of the terms from the block's
    first step `K · (t / K)` up to `t`. The two rules are asked only of the steps below `N`. -/
theorem seg_acc_eq_sum_range (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) :
    a t = ∑ i ∈ Finset.range (t % K + 1), p (K * (t / K) + i) := by
  have hr : t % K < K := Nat.mod_lt _ hK
  have key := acc_eq_sum_range_of_lt (t % K + 1) (fun n => p (K * (t / K) + n)) (fun n => a (K * (t / K) + n))
    (hA (K * (t / K)) (lt_of_le_of_lt (Nat.mul_div_le t K) ht) (Nat.mul_mod_right K (t / K)))
    (fun n hn => by
      have hn' : n + 1 < K := lt_of_lt_of_le hn hr
      have hle : K * (t / K) + (n + 1) ≤ t := by
        have := Nat.div_add_mod t K
        omega
      have hm : (K * (t / K) + (n + 1)) % K ≠ 0 := by
        rw [Nat.mul_add_mod, Nat.mod_eq_of_lt hn']; exact Nat.succ_ne_zero n
      exact hB (K * (t / K) + (n + 1)) (lt_of_le_of_lt hle ht) hm)
    (t % K) (Nat.lt_succ_self _)
  have e : K * (t / K) + t % K = t := Nat.div_add_mod t K
  simpa only [e] using key

/-- The same for an accumulator reset to zero before the first term is added. -/
theorem seg_acc_eq_sum_range_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) :
    a t = ∑ i ∈ Finset.range (t % K + 1), p (K * (t / K) + i) :=
  seg_acc_eq_sum_range K hK a p N (fun t h h0 => (hA t h h0).trans (zero_add _)) hB t ht

/-- After a block's last step (`t % K = K - 1`): the sum of the block's K terms. -/
theorem seg_acc_last (K : ℕ) (hK : 0 < K) (a p : ℕ → M) (N : ℕ)
    (hA : ∀ t, t < N → t % K = 0 → a t = p t)
    (hB : ∀ t, t < N → t % K ≠ 0 → a t = a (t - 1) + p t)
    (t : ℕ) (ht : t < N) (hl : t % K = K - 1) :
    a t = ∑ i : Fin K, p (K * (t / K) + i.val) := by
  rw [seg_acc_eq_sum_range K hK a p N hA hB t ht, hl, Nat.sub_add_cancel hK]
  exact sum_range_eq_sum_fin (fun i => p (K * (t / K) + i)) K

theorem seg_acc_last_zero_add (K : ℕ) (hK : 0 < K) (a p : ℕ → M) (N : ℕ)
    (hA : ∀ t, t < N → t % K = 0 → a t = 0 + p t)
    (hB : ∀ t, t < N → t % K ≠ 0 → a t = a (t - 1) + p t)
    (t : ℕ) (ht : t < N) (hl : t % K = K - 1) :
    a t = ∑ i : Fin K, p (K * (t / K) + i.val) :=
  seg_acc_last K hK a p N (fun t h h0 => (hA t h h0).trans (zero_add _)) hB t ht hl

/-- After a block's last step, when step `kb` of the block adds the sum over the TK positions of contraction block
    `kb` (`hp`): the sum over all `Nc = KB · TK` contraction positions. -/
theorem seg_acc_last_eq_sum_blocks (KB TK Nc : ℕ) (hN : KB * TK = Nc) (hKB : 0 < KB) (f : Fin Nc → M) (a p : ℕ → M) (N : ℕ)
    (hA : ∀ t, t < N → t % KB = 0 → a t = 0 + p t)
    (hB : ∀ t, t < N → t % KB ≠ 0 → a t = a (t - 1) + p t)
    (t : ℕ) (ht : t < N) (hl : t % KB = KB - 1)
    (hlt : ∀ (kb : Fin KB) (kk : Fin TK), kb.val * TK + kk.val < Nc)
    (hp : ∀ kb : Fin KB, p (KB * (t / KB) + kb.val) = ∑ kk : Fin TK, f ⟨kb.val * TK + kk.val, hlt kb kk⟩) :
    a t = ∑ k : Fin Nc, f k := by
  rw [seg_acc_last_zero_add KB hKB a p N hA hB t ht hl, ← sum_blocks_cast KB TK Nc hN f hlt]
  exact Finset.sum_congr rfl fun kb _ => hp kb

end Cert.Hand.BlockSum
-- ==== Proof.Region1.lean ====
/-
  Region 1 of the graph convolution: the messages.

  The region runs over a 391 × 49 grid. Point t = eb · 49 + cb handles the edge block eb (2048 edges) against the
  table block cb (1024 rows of the padded dense product). Its step builds, for each of its edges p and each of the
  1024 rows j, the number  value(p)  if the edge's column word is the word of cb · 1024 + j, and zero otherwise;
  multiplies that 2048 × 1024 matrix into the table block; and adds the product to the output block of the edge
  block, which the first step of the edge block (cb = 0) has first reset to zero. The output block is written back
  after the edge block's last step (cb = 48).

  So entry (e, d) of the result array is, over ALL 50176 table rows k, the sum of the terms  value(e) · table(k, d)
  whose row number k is edge e's column word: the 49 steps of e's block each contribute the 1024 rows of one table
  block, and 49 · 1024 = 50176. Nothing about the contents is assumed: zero times anything is zero in the extended
  reals, and the sums are sums in a commutative monoid.
-/
import proofs.«422335_j38611755991786_1_alg».proof.Proof.Gen.KernelIdeal.Frame
import proofs.«422335_j38611755991786_1_alg».proof.Proof.Spec
import proofs.«422335_j38611755991786_1_alg».proof.Proof.LibPlainDot
import proofs.«422335_j38611755991786_1_alg».proof.Proof.LibBlockSum
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

namespace Cert.Hand.Region1

open Idealize.ShloMosaic Idealize.ShloMosaic.TcCoe Idealize.ShloMosaic.ValueIdx Idealize.SL.Sem
open Idealize.ShloMosaic.Pipeline (Dat)
open Cert.KernelIdeal Cert.KernelIdeal.Gen

/-! ## What each of the two cases leaves in the output block -/

theorem hz : (![0, 0] : Fin 2 → Nat) = fun _ => 0 := funext fun a => by fin_cases a <;> rfl

section Pieces

variable {F : FTy → Type} [FloatOps F]

/-- A step that is not the first of its edge block: the block held xo, and the step's one store, which covers the
    block, leaves the accumulate payload of the three input blocks and xo. -/
theorem out_B (c : Dev nD) (i : grid1.Coords) (a2 : Memref sig .tc .vmem S2048x1 .i32) (h2 : a2.IsWhole)
    (a3 : Memref sig .tc .vmem S2048x1 .f32) (h3 : a3.IsWhole) (a4 : Memref sig .tc .vmem S1024x128 .bf16) (h4 : a4.IsWhole)
    (a5 : Memref sig .tc .vmem S2048x128 .f32) (h5 : a5.IsWhole) (hc : ¬cond1_0 i)
    (x0 : Vec F S2048x1 .i32) (x1 : Vec F S2048x1 .f32) (x2 : Vec F S1024x128 .bf16) (xo : Vec F S2048x128 .f32) :
    out1_B_3 c i a2 h2 a3 h3 a4 h4 a5 h5 hc x0 x1 x2 xo = k1_pay2 i x0 x1 x2 xo := by
  unfold out1_B_3
  rw [View.read_writes_eq_canon _ _ _ (cover1_B_3 c i a2 h2 a3 h3 a4 h4 a5 h5 hc x0 x1 x2 xo)]
  unfold kernelRun1_B
  dsimp only
  sl_unfold_words
  rw [View.canon_unit_zero hz]
  simp only [View.readAt_eq_ld, h2.read_unread, h3.read_unread, h4.read_unread, h5.read_unread,
    View.ld_unit_zero (S := S2048x1) hz, View.ld_unit_zero (S := S1024x128) hz, View.ld_unit_zero (S := S2048x128) hz]

/-- The first step of an edge block: it stores the zero block, reads it back, and its second store, which covers
    the block, leaves the accumulate payload of the three input blocks and the zero block. -/
theorem out_A (c : Dev nD) (i : grid1.Coords) (a2 : Memref sig .tc .vmem S2048x1 .i32) (h2 : a2.IsWhole)
    (a3 : Memref sig .tc .vmem S2048x1 .f32) (h3 : a3.IsWhole) (a4 : Memref sig .tc .vmem S1024x128 .bf16) (h4 : a4.IsWhole)
    (a5 : Memref sig .tc .vmem S2048x128 .f32) (h5 : a5.IsWhole) (hc : cond1_0 i)
    (x0 : Vec F S2048x1 .i32) (x1 : Vec F S2048x1 .f32) (x2 : Vec F S1024x128 .bf16) :
    out1_A_3 c i a2 h2 a3 h3 a4 h4 a5 h5 hc x0 x1 x2 = k1_pay2 i x0 x1 x2 (k1_pay1 (F := F)) := by
  unfold out1_A_3
  rw [View.read_writes_eq_canon _ _ _ (cover1_A_3 c i a2 h2 a3 h3 a4 h4 a5 h5 hc x0 x1 x2)]
  unfold kernelRun1_A
  dsimp only
  sl_unfold_words
  rw [View.canon_cons_unit_zero (S := S2048x128) hz]
  simp only [View.readAt_eq_ld, h2.read_unread, h3.read_unread, h4.read_unread,
    View.readCov_unit_zero (S := S2048x128) _ hz,
    View.ld_unit_zero (S := S2048x1) hz, View.ld_unit_zero (S := S1024x128) hz, View.ld_unit_zero (S := S2048x128) hz]

end Pieces

/-! ## One entry of the accumulate step -/

/-- A column broadcast along the rows: entry (p, c) of the [a, b] array is the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Choosing by an equality test of two words is the if-then-else on their equality. -/
theorem select_cmpi_eq {α : Type} {w : ℕ} (x y : BitVec w) (u v : α) :
    Scalar.select (IntOp.cmpi .eq x y) u v = if x = y then u else v := by
  have hc : IntOp.cmpi .eq x y = BitVec.ofBool (x == y) := rfl
  unfold Scalar.select
  rw [hc]
  by_cases h : x = y
  · rw [if_pos h, beq_iff_eq.mpr h]; exact if_pos (by decide)
  · rw [if_neg h, beq_eq_false_iff_ne.mpr h]; exact if_neg (by decide)

/-- The word c · 1024 + j, computed as the kernel does: the product word plus the lane number's word. -/
theorem word_mul_add (c j : ℕ) :
    IntOp.addi (Scalar.muli (BitVec.ofNat 32 c) 1024#32) (BitVec.ofNat 32 j) = BitVec.ofNat 32 (c * 1024 + j) := by
  unfold IntOp.addi Scalar.muli IntOp.muli
  rw [BitVec.ofNat_add, BitVec.ofNat_mul]

/-- Entry (p, j) of the selection matrix of one step: the edge's value where the edge's column word is the word
    cw + j, zero elsewhere. -/
theorem sel_apply (cw : BitVec 32) (x0 : IVec S2048x1 32) (x1 : FVec Ideal S2048x1 .f32)
    (hs : S2048x1.ShapeCasts S2048x1) (hb : S2048x1.Broadcasts S2048x1024) (hi : S2048x1024.Iotas .tc 32 [1])
    (ht : FTy.bits .bf16 < FTy.bits .f32) (p : Fin 2048) (j : Fin 1024) :
    (truncf .bf16 (select (cmpi .eq (broadcastTo S2048x1024 (shapeCast S2048x1 x0 hs) hb)
          (addi (broadcast S2048x1024 cw) (iota .tc S2048x1024 32 [1] hi)))
        (broadcastTo S2048x1024 (shapeCast S2048x1 (shapeCast S2048x1 x1 hs) hs) hb)
        (broadcast S2048x1024 (Scalar.ofBits (F := Ideal) .f32 0x00000000#32))) ht : FVec Ideal S2048x1024 .bf16) (ix2 p j)
      = if x0 (ix2 p (0 : Fin 1)) = IntOp.addi cw (BitVec.ofNat 32 j.val) then x1 (ix2 p (0 : Fin 1)) else 0 := by
  show Scalar.select (IntOp.cmpi .eq (broadcastTo S2048x1024 (shapeCast S2048x1 x0 hs) hb (ix2 p j))
      (IntOp.addi cw (iota .tc S2048x1024 32 [1] hi (ix2 p j))))
    (broadcastTo S2048x1024 (shapeCast S2048x1 (shapeCast S2048x1 x1 hs) hs) hb (ix2 p j))
    (Ideal.ofBits .f32 0x00000000#32) = _
  rw [broadcastTo_a1_ab_apply, broadcastTo_a1_ab_apply, shapeCast_self, shapeCast_self, shapeCast_self,
    iota_single_apply, select_cmpi_eq, Ideal.ofBits_zero_f32]

/-- THE ACCUMULATE STEP AT AN ENTRY. Entry (p, q) of what a step stores: the block's previous entry plus, over the
    1024 table rows of the step's table block, the terms  value · table entry  of the rows whose number
    (column block · 1024 + j) is the edge's column word. -/
theorem pay2_apply (i : grid1.Coords) (x0 : Vec Ideal S2048x1 .i32) (x1 : Vec Ideal S2048x1 .f32)
    (x2 : Vec Ideal S1024x128 .bf16) (xo : Vec Ideal S2048x128 .f32) (p : Fin 2048) (q : Fin 128) :
    k1_pay2 (F := Ideal) i x0 x1 x2 xo (ix2 p q)
      = xo (ix2 p q) + ∑ j : Fin 1024, if x0 (ix2 p (0 : Fin 1)) = BitVec.ofNat 32 ((i 1).val * 1024 + j.val)
          then x1 (ix2 p (0 : Fin 1)) * x2 (ix2 j q) else 0 := by
  unfold k1_pay2
  refine (addf_apply _ _ _).trans ?_
  refine congrArg₂ (· + ·) (congrFun (shapeCast_self xo _) (ix2 p q)) ?_
  refine (PlainDot.IsPlain.matmul_zero_apply ⟨rfl, rfl, rfl, rfl, rfl, rfl⟩ none _ _ p q).trans ?_
  refine Finset.sum_congr rfl fun j _ => ?_
  refine (congrArg₂ (· * ·) (sel_apply _ x0 x1 _ _ _ _ p j) (congrFun (shapeCast_self x2 _) (ix2 j q))).trans ?_
  rw [word_mul_add, ite_mul, zero_mul]

/-- The reset block is zero everywhere. -/
theorem pay1_apply (y : S2048x128.Idx) : k1_pay1 (F := Ideal) y = 0 := Ideal.ofBits_zero_f32

/-! ## The arrays the region finds, and the blocks a point reads of them -/

variable (V : (c : Dev nD) → (b : Ref sig .tc) → Buf (Elt Ideal) ((c : Thread nD τ).loc b))

/-- The column words, the edge values and the table, as the region finds them. -/
abbrev colsA (c : Dev nD) : Vec Ideal S800768x1 .i32 := V c main_v3
abbrev valsA (c : Dev nD) : Vec Ideal S800768x1 .f32 := V c main_v5
abbrev tabA (c : Dev nD) : Vec Ideal S50176x128 .bf16 := V c main_v1

/-- The three input blocks of point t. -/
abbrev cblk (c : Dev nD) (t : Fin cfg1.N) : Vec Ideal S2048x1 .i32 := iblk1 V c 0 t
abbrev vblk (c : Dev nD) (t : Fin cfg1.N) : Vec Ideal S2048x1 .f32 := iblk1 V c 1 t
abbrev tblk (c : Dev nD) (t : Fin cfg1.N) : Vec Ideal S1024x128 .bf16 := iblk1 V c 2 t

/-- Point t is step t % 49 of edge block t / 49: the edge windows and the output window sit at row block t / 49,
    the table window at row block t % 49, all at column block 0. Decided over the grid. -/
theorem idx_facts : ∀ t : Fin cfg1.N,
    win1_0.index t (0 : Fin 2) = t.val / 49 ∧ win1_0.index t (1 : Fin 2) = 0
    ∧ win1_1.index t (0 : Fin 2) = t.val / 49 ∧ win1_1.index t (1 : Fin 2) = 0
    ∧ win1_2.index t (0 : Fin 2) = t.val % 49 ∧ win1_2.index t (1 : Fin 2) = 0
    ∧ win1_3.index t (0 : Fin 2) = t.val / 49 ∧ win1_3.index t (1 : Fin 2) = 0
    ∧ ((grid1.coords t) 1).val = t.val % 49 :=
  (by decide +kernel : ∀ t : Fin grid1.N,
    win1_0.index t (0 : Fin 2) = t.val / 49 ∧ win1_0.index t (1 : Fin 2) = 0
    ∧ win1_1.index t (0 : Fin 2) = t.val / 49 ∧ win1_1.index t (1 : Fin 2) = 0
    ∧ win1_2.index t (0 : Fin 2) = t.val % 49 ∧ win1_2.index t (1 : Fin 2) = 0
    ∧ win1_3.index t (0 : Fin 2) = t.val / 49 ∧ win1_3.index t (1 : Fin 2) = 0
    ∧ ((grid1.coords t) 1).val = t.val % 49)

/-- Entry y of point t's block of column words is the array's entry at row (t / 49) · 2048 + y₀. -/
theorem cblk_apply (c : Dev nD) (t : Fin cfg1.N) (y : S2048x1.Idx) (i : S800768x1.Idx)
    (h0 : (i 0).val = t.val / 49 * 2048 + (y 0).val) (h1 : (i 1).val = 0) : cblk V c t y = colsA V c i := by
  show colsA V c (((cfg1.win 0).blk t).view.emb y) = colsA V c i
  refine congrArg (colsA V c) (funext fun a => Fin.ext ?_)
  obtain ⟨e0, e1, -⟩ := idx_facts t
  have hy : (y 1).val < 1 := idx2_lt1 y
  match a with
  | ⟨0, _⟩ => show win1_0.index t (0 : Fin 2) * 2048 + 1 * (y 0).val = (i 0).val; rw [e0, h0]; omega
  | ⟨1, _⟩ => show win1_0.index t (1 : Fin 2) * 1 + 1 * (y 1).val = (i 1).val; rw [e1, h1]; omega

/-- The same for the block of edge values. -/
theorem vblk_apply (c : Dev nD) (t : Fin cfg1.N) (y : S2048x1.Idx) (i : S800768x1.Idx)
    (h0 : (i 0).val = t.val / 49 * 2048 + (y 0).val) (h1 : (i 1).val = 0) : vblk V c t y = valsA V c i := by
  show valsA V c (((cfg1.win 1).blk t).view.emb y) = valsA V c i
  refine congrArg (valsA V c) (funext fun a => Fin.ext ?_)
  obtain ⟨-, -, e2, e3, -⟩ := idx_facts t
  have hy : (y 1).val < 1 := idx2_lt1 y
  match a with
  | ⟨0, _⟩ => show win1_1.index t (0 : Fin 2) * 2048 + 1 * (y 0).val = (i 0).val; rw [e2, h0]; omega
  | ⟨1, _⟩ => show win1_1.index t (1 : Fin 2) * 1 + 1 * (y 1).val = (i 1).val; rw [e3, h1]; omega

/-- Entry y of point t's table block is the table's entry at row (t % 49) · 1024 + y₀, column y₁. -/
theorem tblk_apply (c : Dev nD) (t : Fin cfg1.N) (y : S1024x128.Idx) (i : S50176x128.Idx)
    (h0 : (i 0).val = t.val % 49 * 1024 + (y 0).val) (h1 : (i 1).val = (y 1).val) : tblk V c t y = tabA V c i := by
  show tabA V c (((cfg1.win 2).blk t).view.emb y) = tabA V c i
  refine congrArg (tabA V c) (funext fun a => Fin.ext ?_)
  obtain ⟨-, -, -, -, e4, e5, -⟩ := idx_facts t
  match a with
  | ⟨0, _⟩ => show win1_2.index t (0 : Fin 2) * 1024 + 1 * (y 0).val = (i 0).val; rw [e4, h0]; omega
  | ⟨1, _⟩ => show win1_2.index t (1 : Fin 2) * 128 + 1 * (y 1).val = (i 1).val; rw [e5, h1]; omega

/-! ## One entry of the output block, step by step -/

/-- Entry (p, q) of the output block after point n (zero past the grid). -/
def accAt (c : Dev nD) (p : Fin 2048) (q : Fin 128) (n : ℕ) : EReal :=
  if h : n < cfg1.N then outsAt1 V c n h (ix2 p q) else 0

/-- What point n adds to entry (p, q): over the 1024 rows of its table block, the terms  value · table entry  of the
    rows whose number is the edge's column word (zero past the grid). -/
def stepTerm (c : Dev nD) (p : Fin 2048) (q : Fin 128) (n : ℕ) : EReal :=
  if h : n < cfg1.N then
    ∑ j : Fin 1024, if cblk V c ⟨n, h⟩ (ix2 p (0 : Fin 1)) = BitVec.ofNat 32 (n % 49 * 1024 + j.val)
      then vblk V c ⟨n, h⟩ (ix2 p (0 : Fin 1)) * tblk V c ⟨n, h⟩ (ix2 j q) else 0
  else 0

/-- At the first step of an edge block the entry is zero plus the step's term. -/
theorem acc_A (c : Dev nD) (p : Fin 2048) (q : Fin 128) (n : ℕ) (hn : n < cfg1.N) (h0 : n % 49 = 0) :
    accAt V c p q n = 0 + stepTerm V c p q n := by
  have e9 : ((grid1.coords ⟨n, hn⟩) 1).val = n % 49 := (idx_facts ⟨n, hn⟩).2.2.2.2.2.2.2.2
  unfold accAt stepTerm
  simp only [dif_pos hn]
  refine (congrFun (outsAt1_A V c ⟨n, hn⟩ h0) (ix2 p q)).trans ?_
  refine (congrFun (out_A (F := Ideal) c (grid1.coords ⟨n, hn⟩) (ms1_0 ⟨n, hn⟩) (hs1_0 ⟨n, hn⟩) (ms1_1 ⟨n, hn⟩) (hs1_1 ⟨n, hn⟩)
    (ms1_2 ⟨n, hn⟩) (hs1_2 ⟨n, hn⟩) (ms1_3 ⟨n, hn⟩) (hs1_3 ⟨n, hn⟩) ((hcond1_0 ⟨n, hn⟩).mpr h0)
    (cblk V c ⟨n, hn⟩) (vblk V c ⟨n, hn⟩) (tblk V c ⟨n, hn⟩)) (ix2 p q)).trans ?_
  refine (pay2_apply (grid1.coords ⟨n, hn⟩) (cblk V c ⟨n, hn⟩) (vblk V c ⟨n, hn⟩) (tblk V c ⟨n, hn⟩) (k1_pay1 (F := Ideal)) p q).trans ?_
  rw [pay1_apply, e9]

/-- At every other step it is what the step before left plus the step's term. -/
theorem acc_B (c : Dev nD) (p : Fin 2048) (q : Fin 128) (n : ℕ) (hn : n < cfg1.N) (h0 : n % 49 ≠ 0) :
    accAt V c p q n = accAt V c p q (n - 1) + stepTerm V c p q n := by
  have hn' : n - 1 < cfg1.N := Nat.lt_of_le_of_lt (Nat.sub_le _ _) hn
  have e9 : ((grid1.coords ⟨n, hn⟩) 1).val = n % 49 := (idx_facts ⟨n, hn⟩).2.2.2.2.2.2.2.2
  unfold accAt stepTerm
  simp only [dif_pos hn, dif_pos hn']
  refine (congrFun (outsAt1_B V c ⟨n, hn⟩ h0) (ix2 p q)).trans ?_
  refine (congrFun (out_B (F := Ideal) c (grid1.coords ⟨n, hn⟩) (ms1_0 ⟨n, hn⟩) (hs1_0 ⟨n, hn⟩) (ms1_1 ⟨n, hn⟩) (hs1_1 ⟨n, hn⟩)
    (ms1_2 ⟨n, hn⟩) (hs1_2 ⟨n, hn⟩) (ms1_3 ⟨n, hn⟩) (hs1_3 ⟨n, hn⟩) (fun h => h0 ((hcond1_0 ⟨n, hn⟩).mp h))
    (cblk V c ⟨n, hn⟩) (vblk V c ⟨n, hn⟩) (tblk V c ⟨n, hn⟩) (outsAt1 V c (n - 1) hn')) (ix2 p q)).trans ?_
  refine (pay2_apply (grid1.coords ⟨n, hn⟩) (cblk V c ⟨n, hn⟩) (vblk V c ⟨n, hn⟩) (tblk V c ⟨n, hn⟩) (outsAt1 V c (n - 1) hn') p q).trans ?_
  rw [e9]

/-! ## After an edge block's last step: the sum over the whole table -/

/-- After the last step (t % 49 = 48) of its edge block, entry (p, q) of the output block is the message of edge
    e = (t / 49) · 2048 + p at column q: the 49 steps' terms, 1024 table rows each, are the 50176 rows' terms. -/
theorem acc_flush (c : Dev nD) (t : Fin cfg1.N) (hl : t.val % 49 = 48) (p : Fin 2048) (q : Fin 128)
    (e : Fin 800768) (d : Fin 128) (he : e.val = t.val / 49 * 2048 + p.val) (hd : d.val = q.val) :
    outsAt1 V c t.val t.isLt (ix2 p q) = Spec.gatherScale (colsA V c) (valsA V c) (tabA V c) e d := by
  obtain rfl : d = q := Fin.ext hd
  have hN : cfg1.N = 19159 := N_1
  have ht : t.val < 19159 := lt_of_lt_of_eq t.isLt hN
  have hacc : accAt V c p d t.val = outsAt1 V c t.val t.isLt (ix2 p d) := dif_pos t.isLt
  rw [← hacc]
  unfold Spec.gatherScale
  refine Cert.Hand.BlockSum.seg_acc_last_eq_sum_blocks 49 1024 50176 (by norm_num) (by norm_num)
    (fun k : Fin 50176 => if colsA V c (ix2 e (0 : Fin 1)) = BitVec.ofNat 32 k.val
      then valsA V c (ix2 e (0 : Fin 1)) * tabA V c (ix2 k d) else 0)
    (accAt V c p d) (stepTerm V c p d) cfg1.N
    (fun n hn h0 => acc_A V c p d n hn h0) (fun n hn h0 => acc_B V c p d n hn h0)
    t.val t.isLt hl (fun kb kk => by have := kb.isLt; have := kk.isLt; omega) (fun kb => ?_)
  have hkb : kb.val < 49 := kb.isLt
  have hn' : 49 * (t.val / 49) + kb.val < cfg1.N :=
    lt_of_lt_of_eq (show 49 * (t.val / 49) + kb.val < 19159 by omega) hN.symm
  have hdiv : (49 * (t.val / 49) + kb.val) / 49 = t.val / 49 := by omega
  have hmod : (49 * (t.val / 49) + kb.val) % 49 = kb.val := by omega
  unfold stepTerm
  rw [dif_pos hn']
  refine Finset.sum_congr rfl fun j _ => ?_
  have hj : j.val < 1024 := j.isLt
  rw [cblk_apply V c ⟨49 * (t.val / 49) + kb.val, hn'⟩ (ix2 p (0 : Fin 1)) (ix2 e (0 : Fin 1))
      (by show e.val = (49 * (t.val / 49) + kb.val) / 49 * 2048 + p.val; rw [hdiv]; exact he) rfl,
    vblk_apply V c ⟨49 * (t.val / 49) + kb.val, hn'⟩ (ix2 p (0 : Fin 1)) (ix2 e (0 : Fin 1))
      (by show e.val = (49 * (t.val / 49) + kb.val) / 49 * 2048 + p.val; rw [hdiv]; exact he) rfl,
    tblk_apply V c ⟨49 * (t.val / 49) + kb.val, hn'⟩ (ix2 j d)
      (ix2 (⟨kb.val * 1024 + j.val, by omega⟩ : Fin 50176) d)
      (by show kb.val * 1024 + j.val = (49 * (t.val / 49) + kb.val) % 49 * 1024 + j.val; rw [hmod]) rfl,
    hmod]

/-! ## The result array -/

/-- The messages as one array: entry (e, d) is the message of edge e at column d. -/
abbrev msgs (c : Dev nD) : Vec Ideal S800768x128 .f32 := fun i =>
  Spec.gatherScale (colsA V c) (valsA V c) (tabA V c) ⟨(i 0).val, idx2_lt0 i⟩ ⟨(i 1).val, idx2_lt1 i⟩

/-- After the last step of its edge block, entry y of the output block is the messages' entry i, for i at row
    (t / 49) · 2048 + y₀ and column y₁. -/
theorem acc_flush_at (c : Dev nD) (t : Fin cfg1.N) (hl : t.val % 49 = 48) (y : S2048x128.Idx) (i : S800768x128.Idx)
    (h0 : (i 0).val = t.val / 49 * 2048 + (y 0).val) (h1 : (i 1).val = (y 1).val) :
    outsAt1 V c t.val t.isLt y = msgs V c i := by
  obtain ⟨p, q, rfl⟩ : ∃ (p : Fin 2048) (q : Fin 128), y = ix2 p q := ⟨y 0, y 1, eq_ix2 y⟩
  exact acc_flush V c t hl p q ⟨(i 0).val, idx2_lt0 i⟩ ⟨(i 1).val, idx2_lt1 i⟩ h0 h1

/-- Entry y of point t's block of an array laid out like the result is the array's entry at the block's image of y. -/
theorem read_outblk (G : Vec Ideal S800768x128 .f32) (t : Fin cfg1.N) (y : S2048x128.Idx) :
    ((cfg1.win 3).blk t).view.read (Elt Ideal) G y = G (((cfg1.win 3).blk t).view.emb y) := rfl

/-- What a write-back writes (they happen after the last step of each edge block) is that block of the messages. -/
theorem flushed_eq (c : Dev nD) (t : Fin cfg1.N) (hf : (cfg1.win 3).flush t = true) :
    (dat1 V c).flushed 3 t = ((cfg1.win 3).blk t).view.read (Elt Ideal) (msgs V c) := by
  have hl : t.val % 49 = 48 := (flush1_3 t).mp hf
  obtain ⟨-, -, -, -, -, -, e6, e7, -⟩ := idx_facts t
  show (cfg1.win 3).cut (grid1.coords t) ((dat1 V c).after 3 t) = _
  rw [after1_3]
  funext y
  have hy0 : (y 0).val < 2048 := (y 0).isLt
  have hy1 : (y 1).val < 128 := (y 1).isLt
  have hL : (cfg1.win 3).cut (grid1.coords t) (outsAt1 V c t.val t.isLt) y
      = outsAt1 V c t.val t.isLt (ix2 (⟨(y 0).val, hy0⟩ : Fin 2048) (⟨(y 1).val, hy1⟩ : Fin 128)) :=
    congrArg (outsAt1 V c t.val t.isLt) (funext fun a => Fin.ext (by
      match a with
      | ⟨0, _⟩ => rfl
      | ⟨1, _⟩ => rfl))
  refine hL.trans (Eq.trans ?_ (read_outblk (msgs V c) t y).symm)
  refine acc_flush_at V c t hl (ix2 (⟨(y 0).val, hy0⟩ : Fin 2048) (⟨(y 1).val, hy1⟩ : Fin 128))
    (((cfg1.win 3).blk t).view.emb y) ?_ ?_
  · show win1_3.index t (0 : Fin 2) * 2048 + 1 * (y 0).val = t.val / 49 * 2048 + (y 0).val
    rw [e6]; omega
  · show win1_3.index t (1 : Fin 2) * 128 + 1 * (y 1).val = (y 1).val
    rw [e7]; omega

/-- An index of the array is in point t's block iff each coordinate is in the block's range on its axis. -/
theorem mem_blk (t : Fin cfg1.N) (i : S800768x128.Idx) :
    i ∈ ((cfg1.win 3).blk t).view.set ↔ ∀ a : Fin 2, win1_3.index t a * S2048x128.size a ≤ (i a).val
      ∧ (i a).val < win1_3.index t a * S2048x128.size a + S2048x128.size a := by
  show i ∈ ((View.whole main_v8).slice (win1_3.rect t)).set ↔ _
  rw [View.set_slice_whole, Rect.mem_set_unit]
  exact Iff.rfl

/-- Every entry of the array is written back: row r lies in edge block r / 2048, whose last step writes it. -/
theorem covered (i : S800768x128.Idx) :
    ∃ t : Fin cfg1.N, (cfg1.win 3).flush t = true ∧ i ∈ ((cfg1.win 3).blk t).view.set := by
  have hN : cfg1.N = 19159 := N_1
  have hi0 : (i 0).val < 800768 := idx2_lt0 i
  have hi1 : (i 1).val < 128 := idx2_lt1 i
  obtain ⟨t, ht⟩ : ∃ t : Fin cfg1.N, t.val = (i 0).val / 2048 * 49 + 48 := ⟨⟨(i 0).val / 2048 * 49 + 48, by rw [hN]; omega⟩, rfl⟩
  obtain ⟨-, -, -, -, -, -, e6, e7, -⟩ := idx_facts t
  refine ⟨t, (flush1_3 t).mpr (by rw [ht]; omega), ?_⟩
  rw [mem_blk]
  intro a
  match a with
  | ⟨0, _⟩ =>
    show win1_3.index t (0 : Fin 2) * 2048 ≤ (i 0).val ∧ (i 0).val < win1_3.index t (0 : Fin 2) * 2048 + 2048
    rw [e6, ht]; omega
  | ⟨1, _⟩ =>
    show win1_3.index t (1 : Fin 2) * 128 ≤ (i 1).val ∧ (i 1).val < win1_3.index t (1 : Fin 2) * 128 + 128
    rw [e7]; omega

/-- So the region's result array ends holding the messages. -/
theorem final (c : Dev nD) : (dat1 V c).arrAt 3 cfg1.N = msgs V c :=
  (dat1 V c).arrAt_eq_of_cover 3 (msgs V c) (flushed_eq V c) covered

/-- REGION 1's RESULT, entry by entry, for any contents at its entry: entry (e, d) is, over all 50176 rows of the
    table, the sum of  value(e) · table(k, d)  over the rows k whose number is edge e's column word. -/
theorem value (c : Dev nD) (e : Fin 800768) (d : Fin 128) :
    (dat1 (F := Ideal) V c).arrAt 3 cfg1.N (ix2 e d)
      = Spec.gatherScale (V c main_v3) (V c main_v5) (V c main_v1) e d :=
  congrFun (final V c) (ix2 e d)

end Cert.Hand.Region1

end
-- ==== Proof.Region2.lean ====
/-
  The third region of the graph convolution: the scatter of the edges' messages to their nodes, plus the bias.

  The region walks a grid of 49 row blocks (1024 node rows each) by 391 edge blocks (2048 edges each). At point
  t = rb · 391 + eb it compares the number of each of the block's 1024 node rows, rb · 1024 + p, with each of the 2048
  row words of edge block eb, turns the answers into ones and zeros, and multiplies that 1024 × 2048 matrix into the
  2048 × 128 block of messages: entry (p, q) of the product is the sum of the messages, column q, of the edges of the
  block whose row word is the node's number. The output block is set to zero at eb = 0, the product added into it at
  every step, and the bias row added after the last step eb = 390, when the block is written back. So an entry of
  the result is the sum over ALL 800768 edges of the messages whose row word is the node's number, plus the bias:
  the sum over the edges is cut into the 391 blocks the steps add one by one.
-/
import proofs.«422335_j38611755991786_1_alg».proof.Proof.Gen.KernelIdeal.Frame
import proofs.«422335_j38611755991786_1_alg».proof.Proof.Spec
import proofs.«422335_j38611755991786_1_alg».proof.Proof.LibPlainDot
import proofs.«422335_j38611755991786_1_alg».proof.Proof.LibBlockSum
import Idealize.ShloMosaic.Lib.Pipeline.Value
import Idealize.ShloMosaic.Lib.ValueIdx
import Idealize.ShloMosaic.Lib.ValueLayout
import Idealize.ShloMosaic.Lib.Affine
import Idealize.ShloMosaic.Lib.Tactic
import Idealize.ShloMosaic.PureOps.Ideal.Laws

noncomputable section

namespace Cert.Hand.Region2

open Idealize.ShloMosaic Idealize.ShloMosaic.TcCoe Idealize.ShloMosaic.ValueIdx Idealize.SL.Sem
open Idealize.ShloMosaic.Pipeline (Dat)
open Cert.KernelIdeal Cert.KernelIdeal.Gen

/-! ## What each case of the body leaves in the output block -/

section Pieces

variable {F : FTy → Type} [FloatOps F]

/-- The zero offsets of a whole-block access, as the constant function. -/
theorem hz : (![0, 0] : Fin 2 → Nat) = fun _ => 0 := funext fun a => by fin_cases a <;> rfl

/-- An accumulating step: the block that was there, the accumulate step applied to it. -/
theorem out_B (c : Dev nD) (i : grid2.Coords) (a2 : Memref sig .tc .vmem S1x2048 .i32) (h2 : a2.IsWhole)
    (a3 : Memref sig .tc .vmem S2048x128 .f32) (h3 : a3.IsWhole) (a4 : Memref sig .tc .vmem S1x128 .f32) (h4 : a4.IsWhole)
    (a5 : Memref sig .tc .vmem S1024x128 .f32) (h5 : a5.IsWhole) (hc0 : ¬cond2_0 i) (hc1 : ¬cond2_1 i)
    (x0 : Vec F S1x2048 .i32) (x1 : Vec F S2048x128 .f32) (x2 : Vec F S1x128 .f32) (xo : Vec F S1024x128 .f32) :
    out2_B_3 c i a2 h2 a3 h3 a4 h4 a5 h5 hc0 hc1 x0 x1 x2 xo = k2_pay2 i x0 x1 xo := by
  unfold out2_B_3
  rw [View.read_writes_eq_canon _ _ _ (cover2_B_3 c i a2 h2 a3 h3 a4 h4 a5 h5 hc0 hc1 x0 x1 x2 xo)]
  unfold kernelRun2_B
  dsimp only
  sl_unfold_words
  rw [View.canon_unit_zero hz]
  simp only [View.readAt_eq_ld, h2.read_unread, h3.read_unread, h5.read_unread, View.ld_unit_zero (S := S1x2048) hz,
    View.ld_unit_zero (S := S2048x128) hz, View.ld_unit_zero (S := S1024x128) hz]

/-- A block's first step: the block is set to zero, read back, and the accumulate step applied to the zeros. -/
theorem out_A (c : Dev nD) (i : grid2.Coords) (a2 : Memref sig .tc .vmem S1x2048 .i32) (h2 : a2.IsWhole)
    (a3 : Memref sig .tc .vmem S2048x128 .f32) (h3 : a3.IsWhole) (a4 : Memref sig .tc .vmem S1x128 .f32) (h4 : a4.IsWhole)
    (a5 : Memref sig .tc .vmem S1024x128 .f32) (h5 : a5.IsWhole) (hc0 : cond2_0 i) (hc1 : ¬cond2_1 i)
    (x0 : Vec F S1x2048 .i32) (x1 : Vec F S2048x128 .f32) (x2 : Vec F S1x128 .f32) :
    out2_A_3 c i a2 h2 a3 h3 a4 h4 a5 h5 hc0 hc1 x0 x1 x2 = k2_pay2 i x0 x1 (k2_pay1 (F := F)) := by
  unfold out2_A_3
  rw [View.read_writes_eq_canon _ _ _ (cover2_A_3 c i a2 h2 a3 h3 a4 h4 a5 h5 hc0 hc1 x0 x1 x2)]
  unfold kernelRun2_A
  dsimp only
  sl_unfold_words
  rw [View.canon_cons_unit_zero (S := S1024x128) hz]
  simp only [View.readAt_eq_ld, h2.read_unread, h3.read_unread, View.ld_unit_zero (S := S1x2048) hz,
    View.ld_unit_zero (S := S2048x128) hz, View.readCov_unit_zero (S := S1024x128) _ hz]

/-- A block's last step: the accumulate step, read back, and the bias row added to it. -/
theorem out_C (c : Dev nD) (i : grid2.Coords) (a2 : Memref sig .tc .vmem S1x2048 .i32) (h2 : a2.IsWhole)
    (a3 : Memref sig .tc .vmem S2048x128 .f32) (h3 : a3.IsWhole) (a4 : Memref sig .tc .vmem S1x128 .f32) (h4 : a4.IsWhole)
    (a5 : Memref sig .tc .vmem S1024x128 .f32) (h5 : a5.IsWhole) (hc0 : ¬cond2_0 i) (hc1 : cond2_1 i)
    (x0 : Vec F S1x2048 .i32) (x1 : Vec F S2048x128 .f32) (x2 : Vec F S1x128 .f32) (xo : Vec F S1024x128 .f32) :
    out2_C_3 c i a2 h2 a3 h3 a4 h4 a5 h5 hc0 hc1 x0 x1 x2 xo = k2_pay3 (k2_pay2 i x0 x1 xo) x2 := by
  unfold out2_C_3
  rw [View.read_writes_eq_canon _ _ _ (cover2_C_3 c i a2 h2 a3 h3 a4 h4 a5 h5 hc0 hc1 x0 x1 x2 xo)]
  unfold kernelRun2_C
  dsimp only
  sl_unfold_words
  rw [View.canon_cons_unit_zero (S := S1024x128) hz]
  simp only [View.readAt_eq_ld, h2.read_unread, h3.read_unread, h4.read_unread, h5.read_unread, View.ld_unit_zero (S := S1x2048) hz,
    View.ld_unit_zero (S := S2048x128) hz, View.ld_unit_zero (S := S1x128) hz, View.ld_unit_zero (S := S1024x128) hz,
    View.readCov_unit_zero (S := S1024x128) _ hz]

end Pieces

/-! ## The payloads at an entry, over the extended reals -/

/-- A [a, 1] column broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An answer bit widened to a word, read signed, is the bit as a number. -/
theorem toInt_widen_bit (b : BitVec 1) : (b.setWidth 32).toInt = (b.toNat : ℤ) := by
  rcases BitVec.eq_zero_or_eq_one b with h | h <;> subst h <;> decide

/-- The comparison of two words for equality, widened and converted, is 1 when they are equal and 0 otherwise. -/
theorem onehot_entry (a b : BitVec 32) :
    (FloatOps.sitofp (F := Ideal) .f32 ((IntOp.cmpi .eq a b).setWidth 32) : EReal) = if b = a then 1 else 0 := by
  show ((((IntOp.cmpi .eq a b).setWidth 32).toInt : ℝ) : EReal) = _
  rw [toInt_widen_bit]
  by_cases h : b = a
  · rw [if_pos h, IntOp.cmpi_eq.mpr h.symm]
    norm_num
  · have e0 : IntOp.cmpi .eq a b = 0#1 := by
      rcases BitVec.eq_zero_or_eq_one (IntOp.cmpi .eq a b) with h0 | h1
      · exact h0
      · exact absurd (IntOp.cmpi_eq.mp h1).symm h
    rw [if_neg h, e0]
    norm_num

/-- The row number of entry p of row block rb, as a word: rb · 1024 + p. -/
theorem row_word (rb p : ℕ) :
    IntOp.addi (Scalar.muli (BitVec.ofNat 32 rb) 1024#32) (BitVec.ofNat 32 p) = BitVec.ofNat 32 (rb * 1024 + p) := by
  show BitVec.ofNat 32 rb * BitVec.ofNat 32 1024 + BitVec.ofNat 32 p = _
  rw [← BitVec.ofNat_mul, ← BitVec.ofNat_add]

/-- The reset block is zero. -/
theorem pay1_apply (j : S1024x128.Idx) : k2_pay1 (F := Ideal) j = 0 := by
  unfold k2_pay1
  exact Ideal.ofBits_zero_f32

/-- The bias step: the block plus the bias row. -/
theorem pay3_apply (v : Vec Ideal S1024x128 .f32) (b : Vec Ideal S1x128 .f32) (p : Fin 1024) (q : Fin 128) :
    k2_pay3 (F := Ideal) v b (ix2 p q) = v (ix2 p q) + b (ix2 (0 : Fin 1) q) := by
  unfold k2_pay3
  refine (addf_apply _ _ (ix2 p q)).trans ?_
  exact congrArg₂ (· + ·) (congrFun (shapeCast_self v _) (ix2 p q)) (broadcastTo_1b_ab_apply b _ p q)

/-- The comparison block at (p, j): row word w + p against the j-th row word of the block, as 1 or 0. -/
theorem onehot_apply (w : BitVec 32) (x0 : IVec S1x2048 32)
    (hi : S1024x1.Iotas .tc 32 [0]) (hs : S1x2048.ShapeCasts S1x2048) (hb1 : S1024x1.Broadcasts S1024x2048)
    (hb2 : S1x2048.Broadcasts S1024x2048) (hw : 1 < 32) (ht : FTy.bits .bf16 < FTy.bits .f32)
    (p : Fin 1024) (j : Fin 2048) :
    (truncf .bf16 (sitofp (F := Ideal) .f32 (extui 32 (cmpi .eq
        (broadcastTo S1024x2048 (addi (broadcast S1024x1 w) (iota .tc S1024x1 32 [0] hi)) hb1)
        (broadcastTo S1024x2048 (shapeCast S1x2048 x0 hs) hb2)) hw)) ht : FVec Ideal S1024x2048 .bf16) (ix2 p j)
      = if x0 (ix2 (0 : Fin 1) j) = IntOp.addi w (BitVec.ofNat 32 p.val) then 1 else 0 := by
  show (FloatOps.sitofp (F := Ideal) .f32 ((IntOp.cmpi .eq
        (broadcastTo S1024x2048 (addi (broadcast S1024x1 w) (iota .tc S1024x1 32 [0] hi)) hb1 (ix2 p j))
        (broadcastTo S1024x2048 (shapeCast S1x2048 x0 hs) hb2 (ix2 p j))).setWidth 32) : EReal) = _
  rw [broadcastTo_a1_ab_apply, broadcastTo_1b_ab_apply, shapeCast_self, onehot_entry]
  show (if x0 (ix2 (0 : Fin 1) j) = IntOp.addi w (iota .tc S1024x1 32 [0] hi (ix2 p (0 : Fin 1))) then (1 : EReal) else 0) = _
  rw [iota_single_apply]

/-- The product of the accumulate step contracts the comparison block's columns with the message block's rows. -/
theorem plainDot : PlainDot.IsPlain dot_S1024x2048_S2048x128_S1024x128_1_0_0_1_n_n := ⟨rfl, rfl, rfl, rfl, rfl, rfl⟩

/-- The accumulate step at entry (p, q): what was there plus the messages of the block's edges whose row word is
    the number of row p of row block i₀. -/
theorem pay2_apply (i : grid2.Coords) (x0 : Vec Ideal S1x2048 .i32) (x1 : Vec Ideal S2048x128 .f32)
    (xo : Vec Ideal S1024x128 .f32) (p : Fin 1024) (q : Fin 128) :
    k2_pay2 (F := Ideal) i x0 x1 xo (ix2 p q)
      = xo (ix2 p q) + ∑ j : Fin 2048,
          if x0 (ix2 (0 : Fin 1) j) = BitVec.ofNat 32 ((i 0).val * 1024 + p.val) then x1 (ix2 j q) else 0 := by
  unfold k2_pay2
  dsimp only
  refine (addf_apply _ _ (ix2 p q)).trans ?_
  refine congrArg₂ (· + ·) (congrFun (shapeCast_self xo _) (ix2 p q)) ?_
  refine (plainDot.matmul_zero_apply none _ _ p q).trans ?_
  refine Finset.sum_congr rfl fun j _ => ?_
  refine (congrArg₂ (· * ·) (onehot_apply _ x0 _ _ _ _ _ _ p j) (congrFun (shapeCast_self x1 _) (ix2 j q))).trans ?_
  rw [row_word]
  by_cases h : x0 (ix2 (0 : Fin 1) j) = BitVec.ofNat 32 ((i 0).val * 1024 + p.val)
  · rw [if_pos h, if_pos h, one_mul]
  · rw [if_neg h, if_neg h, zero_mul]

/-! ## The blocks a point reads, off the arrays as the region finds them -/

variable (V : (c : Dev nD) → (b : Ref sig .tc) → Buf (Elt Ideal) ((c : Thread nD τ).loc b))

/-- The row words' block, the messages' block and the bias row at point t. -/
abbrev rblk (c : Dev nD) (t : Fin cfg2.N) : Vec Ideal S1x2048 .i32 := iblk2 V c 0 t
abbrev mblk (c : Dev nD) (t : Fin cfg2.N) : Vec Ideal S2048x128 .f32 := iblk2 V c 1 t
abbrev bblk (c : Dev nD) (t : Fin cfg2.N) : Vec Ideal S1x128 .f32 := iblk2 V c 2 t

/-- The three arrays: the row words, the messages, the bias. -/
abbrev rowsA (c : Dev nD) : Spec.S1xQ.Idx → BitVec 32 := V c main_v7
abbrev msgsA (c : Dev nD) : Spec.SQxD.Idx → EReal := V c main_v8
abbrev biasA (c : Dev nD) : Spec.S1xD.Idx → EReal := V c main_arg2

/-- The grid coordinates of point t: the row block t / 391 and the edge block t % 391. -/
theorem coords_facts (t : Fin cfg2.N) : (grid2.coords t 0).val = t.val / 391 ∧ (grid2.coords t 1).val = t.val % 391 := by
  have hN : t.val < 19159 := lt_of_lt_of_eq t.isLt (show cfg2.N = 19159 from N_2)
  have s0 : grid2.stride 0 = 391 := by decide
  have s1 : grid2.stride 1 = 1 := by decide
  have b0 : grid2.bound 0 = 49 := rfl
  have b1 : grid2.bound 1 = 391 := rfl
  have h0 : (grid2.coords t 0).val = t.val / 391 % 49 := by
    show t.val / grid2.stride 0 % grid2.bound 0 = _
    rw [s0, b0]
  have h1 : (grid2.coords t 1).val = t.val / 1 % 391 := by
    show t.val / grid2.stride 1 % grid2.bound 1 = _
    rw [s1, b1]
  constructor <;> omega

/-- Point t = rb · 391 + eb: the row words' block is column block eb, the messages' block is row block eb, the bias
    has one block, the output block is row block rb; the first grid coordinate is rb. -/
theorem idx_facts (t : Fin cfg2.N) :
    win2_0.index t (0 : Fin 2) = 0 ∧ win2_0.index t (1 : Fin 2) = t.val % 391
    ∧ win2_1.index t (0 : Fin 2) = t.val % 391 ∧ win2_1.index t (1 : Fin 2) = 0
    ∧ win2_2.index t (0 : Fin 2) = 0 ∧ win2_2.index t (1 : Fin 2) = 0
    ∧ win2_3.index t (0 : Fin 2) = t.val / 391 ∧ win2_3.index t (1 : Fin 2) = 0
    ∧ (grid2.coords t 0).val = t.val / 391 := by
  obtain ⟨c0, c1⟩ := coords_facts t
  have hN : t.val < 19159 := lt_of_lt_of_eq t.isLt (show cfg2.N = 19159 from N_2)
  have hl0 : (grid2.coords t 0).val < 2 ^ 32 := by omega
  have hl1 : (grid2.coords t 1).val < 2 ^ 32 := by omega
  refine ⟨rfl, ?_, ?_, rfl, rfl, rfl, ?_, rfl, c0⟩
  · show (BitVec.ofNat 32 (grid2.coords t 1).val).toNat = t.val % 391
    rw [BitVec.toNat_ofNat, Nat.mod_eq_of_lt hl1, c1]
  · show (BitVec.ofNat 32 (grid2.coords t 1).val).toNat = t.val % 391
    rw [BitVec.toNat_ofNat, Nat.mod_eq_of_lt hl1, c1]
  · show (BitVec.ofNat 32 (grid2.coords t 0).val).toNat = t.val / 391
    rw [BitVec.toNat_ofNat, Nat.mod_eq_of_lt hl0, c0]

/-- Row word j of the block at point t is row word eb · 2048 + j of the array. -/
theorem rblk_apply (c : Dev nD) (t : Fin cfg2.N) (j : Fin 2048) (e : Fin 800768) (he : e.val = t.val % 391 * 2048 + j.val) :
    rblk V c t (ix2 (0 : Fin 1) j) = rowsA V c (ix2 (0 : Fin 1) e) := by
  obtain ⟨e0, e1, -⟩ := idx_facts t
  show V c main_v7 (((cfg2.win 0).blk t).view.emb (ix2 (0 : Fin 1) j)) = V c main_v7 (ix2 (0 : Fin 1) e)
  refine congrArg (V c main_v7) (funext fun a => Fin.ext ?_)
  match a with
  | ⟨0, _⟩ => show win2_0.index t (0 : Fin 2) * 1 + 1 * 0 = 0; omega
  | ⟨1, _⟩ => show win2_0.index t (1 : Fin 2) * 2048 + 1 * j.val = e.val; omega

/-- Message row j of the block at point t is message row eb · 2048 + j of the array. -/
theorem mblk_apply (c : Dev nD) (t : Fin cfg2.N) (j : Fin 2048) (q : Fin 128) (e : Fin 800768)
    (he : e.val = t.val % 391 * 2048 + j.val) :
    mblk V c t (ix2 j q) = msgsA V c (ix2 e q) := by
  obtain ⟨-, -, e2, e3, -⟩ := idx_facts t
  show V c main_v8 (((cfg2.win 1).blk t).view.emb (ix2 j q)) = V c main_v8 (ix2 e q)
  refine congrArg (V c main_v8) (funext fun a => Fin.ext ?_)
  match a with
  | ⟨0, _⟩ => show win2_1.index t (0 : Fin 2) * 2048 + 1 * j.val = e.val; omega
  | ⟨1, _⟩ => show win2_1.index t (1 : Fin 2) * 128 + 1 * q.val = q.val; omega

/-- The bias block is the bias row. -/
theorem bblk_apply (c : Dev nD) (t : Fin cfg2.N) (q : Fin 128) :
    bblk V c t (ix2 (0 : Fin 1) q) = biasA V c (ix2 (0 : Fin 1) q) := by
  obtain ⟨-, -, -, -, e4, e5, -⟩ := idx_facts t
  show V c main_arg2 (((cfg2.win 2).blk t).view.emb (ix2 (0 : Fin 1) q)) = V c main_arg2 (ix2 (0 : Fin 1) q)
  refine congrArg (V c main_arg2) (funext fun a => Fin.ext ?_)
  match a with
  | ⟨0, _⟩ => show win2_2.index t (0 : Fin 2) * 1 + 1 * 0 = 0; omega
  | ⟨1, _⟩ => show win2_2.index t (1 : Fin 2) * 128 + 1 * q.val = q.val; omega

/-! ## The accumulator: what the output block holds before the bias is added -/

/-- What the accumulate step at point n finds in the block: zeros at a block's first step, else what the point
    before left. -/
def prev (c : Dev nD) (n : ℕ) (h : n < cfg2.N) : Vec Ideal S1024x128 .f32 :=
  if n % 391 = 0 then k2_pay1 (F := Ideal) else outsAt2 V c (n - 1) (Nat.lt_of_le_of_lt (Nat.sub_le _ _) h)

/-- What the accumulate step at point n leaves. -/
def acc (c : Dev nD) (n : ℕ) (h : n < cfg2.N) : Vec Ideal S1024x128 .f32 :=
  k2_pay2 (F := Ideal) (grid2.coords ⟨n, h⟩) (rblk V c ⟨n, h⟩) (mblk V c ⟨n, h⟩) (prev V c n h)

/-- After point t the block holds the accumulate step's result, and at a block's last step that plus the bias row. -/
theorem outs_eq (c : Dev nD) (t : Fin cfg2.N) :
    outsAt2 V c t.val t.isLt
      = if t.val % 391 = 390 then k2_pay3 (F := Ideal) (acc V c t.val t.isLt) (bblk V c t) else acc V c t.val t.isLt := by
  by_cases h1 : t.val % 391 = 390
  · have h0 : ¬t.val % 391 = 0 := by omega
    rw [if_pos h1, outsAt2_C V c t h0 h1]
    try dsimp only
    refine (out_C (F := Ideal) c (grid2.coords t) (ms2_0 t) (hs2_0 t) (ms2_1 t) (hs2_1 t) (ms2_2 t) (hs2_2 t) (ms2_3 t) (hs2_3 t)
      (fun h => h0 ((hcond2_0 t).mp h)) ((hcond2_1 t).mpr h1) (iblk2 V c 0 t) (iblk2 V c 1 t) (iblk2 V c 2 t)
      (outsAt2 V c (t.val - 1) (Nat.lt_of_le_of_lt (Nat.sub_le _ _) t.isLt))).trans ?_
    unfold acc prev
    rw [if_neg h0]
  · rw [if_neg h1]
    by_cases h0 : t.val % 391 = 0
    · rw [outsAt2_A V c t h0 h1]
      try dsimp only
      refine (out_A (F := Ideal) c (grid2.coords t) (ms2_0 t) (hs2_0 t) (ms2_1 t) (hs2_1 t) (ms2_2 t) (hs2_2 t) (ms2_3 t) (hs2_3 t)
        ((hcond2_0 t).mpr h0) (fun h => h1 ((hcond2_1 t).mp h)) (iblk2 V c 0 t) (iblk2 V c 1 t) (iblk2 V c 2 t)).trans ?_
      unfold acc prev
      rw [if_pos h0]
    · rw [outsAt2_B V c t h0 h1]
      try dsimp only
      refine (out_B (F := Ideal) c (grid2.coords t) (ms2_0 t) (hs2_0 t) (ms2_1 t) (hs2_1 t) (ms2_2 t) (hs2_2 t) (ms2_3 t) (hs2_3 t)
        (fun h => h0 ((hcond2_0 t).mp h)) (fun h => h1 ((hcond2_1 t).mp h)) (iblk2 V c 0 t) (iblk2 V c 1 t) (iblk2 V c 2 t)
        (outsAt2 V c (t.val - 1) (Nat.lt_of_le_of_lt (Nat.sub_le _ _) t.isLt))).trans ?_
      unfold acc prev
      rw [if_neg h0]

/-! ## The accumulator at an entry is the sum over the edges seen so far in the block's run -/

/-- The term of edge e for node number r, column q: its message if its row word is r, else nothing. -/
def edgeTerm (c : Dev nD) (r : ℕ) (q : Fin 128) (e : Fin 800768) : EReal :=
  if rowsA V c (ix2 (0 : Fin 1) e) = BitVec.ofNat 32 r then msgsA V c (ix2 e q) else 0

/-- What step n adds at entry (p, q): the terms of the 2048 edges of its edge block for node rb · 1024 + p. -/
def stepSum (c : Dev nD) (p : Fin 1024) (q : Fin 128) (n : ℕ) : EReal :=
  ∑ j : Fin 2048, edgeTerm V c (n / 391 * 1024 + p.val) q ⟨n % 391 * 2048 + j.val, by have := j.isLt; omega⟩

/-- The accumulate step at entry (p, q), over the arrays. -/
theorem acc_apply (c : Dev nD) (n : ℕ) (h : n < cfg2.N) (p : Fin 1024) (q : Fin 128) :
    acc V c n h (ix2 p q) = prev V c n h (ix2 p q) + stepSum V c p q n := by
  obtain ⟨-, -, -, -, -, -, -, -, e8⟩ := idx_facts ⟨n, h⟩
  refine (pay2_apply (grid2.coords ⟨n, h⟩) (rblk V c ⟨n, h⟩) (mblk V c ⟨n, h⟩) (prev V c n h) p q).trans ?_
  unfold stepSum
  refine congrArg (prev V c n h (ix2 p q) + ·) (Finset.sum_congr rfl fun j _ => ?_)
  rw [rblk_apply V c ⟨n, h⟩ j ⟨n % 391 * 2048 + j.val, by have := j.isLt; omega⟩ rfl,
    mblk_apply V c ⟨n, h⟩ j q ⟨n % 391 * 2048 + j.val, by have := j.isLt; omega⟩ rfl, e8]
  rfl

/-- The accumulator at entry (p, q) as a function of the step's number (nothing past the grid). -/
def accN (c : Dev nD) (p : Fin 1024) (q : Fin 128) (n : ℕ) : EReal :=
  if h : n < cfg2.N then acc V c n h (ix2 p q) else 0

/-- At a block's first step the accumulator starts from zero. -/
theorem accN_first (c : Dev nD) (p : Fin 1024) (q : Fin 128) (n : ℕ) (hn : n < 19159) (h0 : n % 391 = 0) :
    accN V c p q n = 0 + stepSum V c p q n := by
  have h : n < cfg2.N := lt_of_lt_of_eq hn (show cfg2.N = 19159 from N_2).symm
  unfold accN
  rw [dif_pos h, acc_apply]
  refine congrArg (· + stepSum V c p q n) ?_
  unfold prev
  rw [if_pos h0]
  exact pay1_apply _

/-- At every other step it adds the step's sum to what the step before left (which never carried the bias: the
    step before is not a block's last). -/
theorem accN_next (c : Dev nD) (p : Fin 1024) (q : Fin 128) (n : ℕ) (hn : n < 19159) (h0 : n % 391 ≠ 0) :
    accN V c p q n = accN V c p q (n - 1) + stepSum V c p q n := by
  have h : n < cfg2.N := lt_of_lt_of_eq hn (show cfg2.N = 19159 from N_2).symm
  have h' : n - 1 < cfg2.N := Nat.lt_of_le_of_lt (Nat.sub_le _ _) h
  unfold accN
  rw [dif_pos h, dif_pos h', acc_apply]
  refine congrArg (· + stepSum V c p q n) ?_
  have ho : outsAt2 V c (n - 1) h' = acc V c (n - 1) h' :=
    (outs_eq V c ⟨n - 1, h'⟩).trans (if_neg (show ¬(n - 1) % 391 = 390 by omega))
  unfold prev
  rw [if_neg h0]
  exact congrFun ho (ix2 p q)

/-- At a block's last step the accumulator holds the terms of ALL the 800768 edges for its node. -/
theorem accN_last (c : Dev nD) (p : Fin 1024) (q : Fin 128) (t : ℕ) (ht : t < 19159) (hl : t % 391 = 390) :
    accN V c p q t = ∑ e : Fin 800768, edgeTerm V c (t / 391 * 1024 + p.val) q e := by
  refine Cert.Hand.BlockSum.seg_acc_last_eq_sum_blocks 391 2048 800768 rfl (by decide)
    (edgeTerm V c (t / 391 * 1024 + p.val) q) (accN V c p q) (stepSum V c p q) 19159
    (accN_first V c p q) (accN_next V c p q) t ht hl (fun kb kk => by have := kb.isLt; have := kk.isLt; omega) (fun kb => ?_)
  unfold stepSum
  refine Finset.sum_congr rfl fun kk _ => ?_
  have hkb := kb.isLt
  have hr : (391 * (t / 391) + kb.val) / 391 * 1024 + p.val = t / 391 * 1024 + p.val := by omega
  have he : (⟨(391 * (t / 391) + kb.val) % 391 * 2048 + kk.val, by have := kk.isLt; omega⟩ : Fin 800768)
      = ⟨kb.val * 2048 + kk.val, by have := kk.isLt; omega⟩ := Fin.ext (by show (391 * (t / 391) + kb.val) % 391 * 2048 + kk.val = kb.val * 2048 + kk.val; omega)
  rw [hr, he]

/-! ## From the blocks to the array -/

/-- The padded result, entry by entry. -/
abbrev G (c : Dev nD) : S50176x128.Idx → EReal := fun i =>
  Spec.scatterBias (V c main_v7) (V c main_v8) (V c main_arg2) ⟨(i 0).val, idx2_lt0 i⟩ ⟨(i 1).val, idx2_lt1 i⟩

/-- The result at an entry whose coordinates are r and q: all the edges' terms for node r, plus the bias. -/
theorem G_apply (c : Dev nD) (i : S50176x128.Idx) (r : ℕ) (q : Fin 128) (h0 : (i 0).val = r) (h1 : (i 1).val = q.val) :
    G V c i = (∑ e : Fin 800768, edgeTerm V c r q e) + biasA V c (ix2 (0 : Fin 1) q) := by
  subst h0
  have hq : (⟨(i 1).val, idx2_lt1 i⟩ : Fin 128) = q := Fin.ext h1
  show Spec.scatterBias (V c main_v7) (V c main_v8) (V c main_arg2) ⟨(i 0).val, idx2_lt0 i⟩ ⟨(i 1).val, idx2_lt1 i⟩ = _
  rw [hq]
  rfl

/-- A block of a whole-array function, read at an entry of the block, is the function at that entry's place in
    the array. -/
theorem read_blk (t : Fin cfg2.N) (g : S50176x128.Idx → EReal) (y : ((cfg2.win 3).xblock (grid2.coords t)).Idx) :
    ((cfg2.win 3).blk t).view.read (Elt Ideal) g y = g (((cfg2.win 3).blk t).view.emb y) := rfl

/-- What a block's last step writes back is its block of the padded result. -/
theorem flushed_eq (c : Dev nD) (t : Fin cfg2.N) (hf : (cfg2.win 3).flush t = true) :
    (dat2 V c).flushed 3 t = ((cfg2.win 3).blk t).view.read (Elt Ideal) (G V c) := by
  have h1 : t.val % 391 = 390 := (flush2_3 t).mp hf
  have hN : t.val < 19159 := lt_of_lt_of_eq t.isLt (show cfg2.N = 19159 from N_2)
  obtain ⟨-, -, -, -, -, -, e6, e7, -⟩ := idx_facts t
  show (cfg2.win 3).cut (grid2.coords t) ((dat2 V c).after 3 t) = _
  rw [after2_3, outs_eq V c t, if_pos h1]
  funext y
  have hy0 : (y 0).val < 1024 := (y 0).isLt
  have hy1 : (y 1).val < 128 := (y 1).isLt
  obtain ⟨p, hp⟩ : ∃ p : Fin 1024, p.val = (y 0).val := ⟨⟨_, hy0⟩, rfl⟩
  obtain ⟨q, hq⟩ : ∃ q : Fin 128, q.val = (y 1).val := ⟨⟨_, hy1⟩, rfl⟩
  have hx : (cfg2.win 3).xinj (grid2.coords t) y = ix2 p q :=
    funext fun a => Fin.ext (by match a with | ⟨0, _⟩ => exact hp.symm | ⟨1, _⟩ => exact hq.symm)
  refine Eq.trans ?_ (read_blk t (G V c) y).symm
  rw [G_apply V c (((cfg2.win 3).blk t).view.emb y) (t.val / 391 * 1024 + p.val) q
    (by show win2_3.index t (0 : Fin 2) * 1024 + 1 * (y 0).val = t.val / 391 * 1024 + p.val; omega)
    (by show win2_3.index t (1 : Fin 2) * 128 + 1 * (y 1).val = q.val; omega)]
  show k2_pay3 (F := Ideal) (acc V c t.val t.isLt) (bblk V c t) ((cfg2.win 3).xinj (grid2.coords t) y) = _
  rw [hx, pay3_apply, bblk_apply]
  have ha : acc V c t.val t.isLt (ix2 p q) = accN V c p q t.val := by unfold accN; rw [dif_pos t.isLt]
  rw [ha, accN_last V c p q t.val hN h1]

/-- Every entry of the padded result lies in the block of its row block's last step. -/
theorem cover (i : S50176x128.Idx) :
    ∃ t : Fin cfg2.N, (cfg2.win 3).flush t = true ∧ i ∈ ((cfg2.win 3).blk t).view.set := by
  have hi0 : (i 0).val < 50176 := (i 0).isLt
  have hi1 : (i 1).val < 128 := (i 1).isLt
  have hlt : (i 0).val / 1024 * 391 + 390 < cfg2.N := by rw [show cfg2.N = 19159 from N_2]; omega
  refine ⟨⟨(i 0).val / 1024 * 391 + 390, hlt⟩, (flush2_3 _).mpr (by show ((i 0).val / 1024 * 391 + 390) % 391 = 390; omega), ?_⟩
  obtain ⟨-, -, -, -, -, -, e6, e7, -⟩ := idx_facts ⟨(i 0).val / 1024 * 391 + 390, hlt⟩
  have e6' : win2_3.index ⟨(i 0).val / 1024 * 391 + 390, hlt⟩ (0 : Fin 2) = (i 0).val / 1024 := by
    rw [e6]; show ((i 0).val / 1024 * 391 + 390) / 391 = _; omega
  show i ∈ ((View.whole main_v9).slice (win2_3.rect ⟨(i 0).val / 1024 * 391 + 390, hlt⟩)).set
  rw [View.set_slice_whole, Rect.mem_set_unit]
  intro a
  match a with
  | ⟨0, _⟩ =>
    show win2_3.index ⟨(i 0).val / 1024 * 391 + 390, hlt⟩ (0 : Fin 2) * 1024 ≤ (i 0).val
      ∧ (i 0).val < win2_3.index ⟨(i 0).val / 1024 * 391 + 390, hlt⟩ (0 : Fin 2) * 1024 + 1024
    rw [e6']; omega
  | ⟨1, _⟩ =>
    show win2_3.index ⟨(i 0).val / 1024 * 391 + 390, hlt⟩ (1 : Fin 2) * 128 ≤ (i 1).val
      ∧ (i 1).val < win2_3.index ⟨(i 0).val / 1024 * 391 + 390, hlt⟩ (1 : Fin 2) * 128 + 128
    rw [e7]; omega

/-- The result array after the region: the padded result. -/
theorem final (c : Dev nD) : (dat2 (F := Ideal) V c).arrAt 3 cfg2.N = G V c :=
  (dat2 V c).arrAt_eq_of_cover 3 (G V c) (flushed_eq V c) cover

/-- REGION 2's result array, entry by entry: for node r and column d, the messages of the edges whose row word is r,
    summed, plus the bias. -/
theorem value (c : Dev nD) (r : Fin 50176) (d : Fin 128) :
    (dat2 (F := Ideal) V c).arrAt 3 cfg2.N (ix2 r d) = Spec.scatterBias (V c main_v7) (V c main_v8) (V c main_arg2) r d :=
  congrFun (final V c) (ix2 r d)

end Cert.Hand.Region2

end
-- ==== Proof.GlueTail.lean ====
/-
  The two joints between region 2 of the graph convolution and what surrounds it.

  After region 2 the program keeps rows 0 … 49999 of the padded result: entry (r, d) of the returned array is entry
  (r, d) of the padded one, which is what region 2's write-backs leave in its output array.

  Before region 2 nothing but region 1 has touched the three arrays region 2 reads: the row words are as region 1
  found them (region 1 neither reads nor writes them), the messages are what region 1's write-backs leave in its
  output array, and the bias row is the launch's (no host operation and no region writes an argument).
-/
import proofs.«422335_j38611755991786_1_alg».proof.Proof.Gen.KernelIdeal.Frame
import Idealize.ShloMosaic.Lib.Pipeline.Value
import Idealize.ShloMosaic.Lib.StableHlo.Run
import Idealize.ShloMosaic.Lib.ValueIdx

noncomputable section

namespace Cert.Hand.GlueTail

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The returned array is the leading 50000 rows of region 2's output array: the one host operation after region 2
    is the slice at offset (0, 0), and region 2 leaves its output array at its folded write-backs. -/
theorem v10_eq_slice (c : Dev nD) :
    (W13 m ρ c (Proc.devRef .tc main_v10) : S50000x128.Idx → EReal)
      = extractStridedSlice S50000x128 ![0, 0]
          ((dat2 (F := Ideal) (V11 m ρ) c).arrAt 3 cfg2.N : S50176x128.Idx → EReal) slices_S50176x128_S50000x128_0_0 := by
  show StableHlo.after hostOps3 _ (Proc.devRef .tc main_v10) = _
  after_results
  rw [show W12 m ρ c (Proc.devRef .tc main_v9) = (dat2 (F := Ideal) (V11 m ρ) c).arrAt 3 cfg2.N from W12_arr m ρ c 3]

/-- Entry (r, d) of the returned array is entry (r, d) of region 2's output array: a slice at offset (0, 0) read at
    an index reads its operand at the same coordinates. -/
theorem v10_apply (c : Dev nD) (r : Fin 50000) (d : Fin 128) :
    (W13 m ρ c (Proc.devRef .tc main_v10) : S50000x128.Idx → EReal) (ix2 r d)
      = ((dat2 (F := Ideal) (V11 m ρ) c).arrAt 3 cfg2.N : S50176x128.Idx → EReal)
          (ix2 (⟨r.val, by have := r.isLt; omega⟩ : Fin 50176) d) := by
  rw [v10_eq_slice m ρ c]
  refine extractStridedSlice_apply _ _ _ _ _ fun a => ?_
  match a with
  | ⟨0, _⟩ => simp
  | ⟨1, _⟩ => simp

/-- Region 2 finds the row words as region 1 found them: they are none of region 1's arrays. -/
theorem V11_v7 (c : Dev nD) : V11 m ρ c main_v7 = V10 m ρ c main_v7 :=
  W11_of_ne m ρ c main_v7 (by decide)

/-- Region 2 finds the messages at what region 1's write-backs leave in its output array. -/
theorem V11_v8 (c : Dev nD) : V11 m ρ c main_v8 = (dat1 (F := Ideal) (V10 m ρ) c).arrAt 3 cfg1.N :=
  W11_arr m ρ c 3

/-- Region 2 finds the bias row as launched. The final contents at the bias are the launch's; between region 2's
    entry and the end only region 2 and the final slice run: the slice writes the returned array alone, and region 2
    reads the bias through an input window, which leaves the array as entered. -/
theorem V11_arg2 (c : Dev nD) : V11 m ρ c main_arg2 = m ((c : Thread nD τ).loc main_arg2) :=
  calc V11 m ρ c main_arg2
    _ = W12 m ρ c (Proc.devRef .tc main_arg2) :=
        ((W12_arr m ρ c 2).trans (((dat2 (V11 m ρ) c).arrAt_in 2 rfl _).trans (A_eq2 (V11 m ρ) c 2))).symm
    _ = W13 m ρ c (Proc.devRef .tc main_arg2) :=
        (StableHlo.after_of_forall_not_mem (b := Proc.devRef .tc main_arg2) _ _ (List.forall_iff_forall_mem.mp (by
          simp only [hostOps3, List.Forall, StableHlo.unary_writes, Finset.mem_singleton]
          exact StableHlo.devRef_ne_of_ne (by decide)))).symm
    _ = m ((c : Thread nD τ).loc main_arg2) := W13_main_arg2 m ρ c

end Cert.Hand.GlueTail

end
-- ==== Proof.GluePads.lean ====
/-
  What the second region finds at its entry.

  Between the first region (the dense product) and the second, the host pads four arrays to whole tiles: the product's
  50000 rows to 50176 with zero rows, and the three edge lists (row words, column words, values) from 800000 to 800768
  entries with zeros, the column words and the values then laid out as columns and the row words as a row.  Read at an
  index, each padded array is the original below the original extent and zero from there on; a layout change keeps the
  row-major position, which here is the one coordinate that is not a unit axis.
-/
import proofs.«422335_j38611755991786_1_alg».proof.Proof.Gen.KernelIdeal.Frame
import proofs.«422335_j38611755991786_1_alg».proof.Proof.Spec
import Idealize.ShloMosaic.Lib.Pipeline.Value
import Idealize.ShloMosaic.Lib.StableHlo.Run
import Idealize.ShloMosaic.Lib.ValueIdx
import Idealize.ShloMosaic.Lib.KernelVsHost

noncomputable section

namespace Cert.Hand.GluePads

open Idealize.ShloMosaic Idealize.ShloMosaic.TcCoe Idealize.ShloMosaic.ValueIdx Idealize.SL.Sem
open Cert.KernelIdeal Cert.KernelIdeal.Gen

/-! ## Padding and reshaping read at an index -/

section ReadAtIndex
variable {α : Type}

/-- A vector of 800000 entries padded at its end to 800768: an entry below 800000 is the vector's, every other the
    padding value. -/
theorem padEnd_apply (x : (⟨1, ![800000]⟩ : Shape).Idx → α) {u : Shape} (v : u.Idx → α)
    (hp : (⟨1, ![800000]⟩ : Shape).Pads ![0] ![768] ![0] ⟨1, ![800768]⟩) (hu : 0 < u.numel) (k : Fin 800768) :
    pad ⟨1, ![800768]⟩ ![0] ![768] ![0] x v hp hu (ix1 k)
      = if h : k.val < 800000 then x (ix1 ⟨k.val, h⟩) else v (Shape.Idx.first hu) := by
  by_cases h : k.val < 800000
  · rw [dif_pos h]
    refine pad_apply_of_inside _ _ _ x v hp hu _ (ix1 (⟨k.val, h⟩ : Fin 800000)) fun a => ?_
    have ha : a = 0 := Subsingleton.elim _ _
    subst ha
    show k.val = 0 + k.val * (0 + 1)
    omega
  · rw [dif_neg h]
    refine pad_apply_of_not_inside _ _ _ x v hp hu _ (0 : Fin 1) ?_
    show ¬(0 ≤ k.val ∧ (k.val - 0) % 1 = 0 ∧ (k.val - 0) / 1 < 800000)
    omega

/-- The padded vector laid out as a column: row `i 0` is entry `i 0` of the padded vector. -/
theorem padEnd_col_apply (x : (⟨1, ![800000]⟩ : Shape).Idx → α) {u : Shape} (v : u.Idx → α)
    (hp : (⟨1, ![800000]⟩ : Shape).Pads ![0] ![768] ![0] ⟨1, ![800768]⟩) (hu : 0 < u.numel)
    (hc : (⟨1, ![800768]⟩ : Shape).ShapeCasts ⟨2, ![800768, 1]⟩) (i : (⟨2, ![800768, 1]⟩ : Shape).Idx) :
    shapeCast ⟨2, ![800768, 1]⟩ (pad ⟨1, ![800768]⟩ ![0] ![768] ![0] x v hp hu) hc i
      = if h : (i 0).val < 800000 then x (ix1 ⟨(i 0).val, h⟩) else v (Shape.Idx.first hu) := by
  have h1 : (i 1).val < 1 := idx2_lt1 i
  rw [shapeCast_apply _ hc i (ix1 (⟨(i 0).val, idx2_lt0 i⟩ : Fin 800768)) (by
    rw [Shape.rowMajor_val_one, Shape.rowMajor_val_two]
    show (i 0).val = (i 0).val * 1 + (i 1).val
    omega)]
  exact padEnd_apply x v hp hu _

/-- The padded vector laid out as a row: column `i 1` is entry `i 1` of the padded vector. -/
theorem padEnd_row_apply (x : (⟨1, ![800000]⟩ : Shape).Idx → α) {u : Shape} (v : u.Idx → α)
    (hp : (⟨1, ![800000]⟩ : Shape).Pads ![0] ![768] ![0] ⟨1, ![800768]⟩) (hu : 0 < u.numel)
    (hc : (⟨1, ![800768]⟩ : Shape).ShapeCasts ⟨2, ![1, 800768]⟩) (i : (⟨2, ![1, 800768]⟩ : Shape).Idx) :
    shapeCast ⟨2, ![1, 800768]⟩ (pad ⟨1, ![800768]⟩ ![0] ![768] ![0] x v hp hu) hc i
      = if h : (i 1).val < 800000 then x (ix1 ⟨(i 1).val, h⟩) else v (Shape.Idx.first hu) := by
  have h0 : (i 0).val < 1 := idx2_lt0 i
  rw [shapeCast_apply _ hc i (ix1 (⟨(i 1).val, idx2_lt1 i⟩ : Fin 800768)) (by
    rw [Shape.rowMajor_val_one, Shape.rowMajor_val_two]
    show (i 1).val = (i 0).val * 800768 + (i 1).val
    omega)]
  exact padEnd_apply x v hp hu _

/-- A table of 50000 rows padded below to 50176 rows: a row below 50000 is the table's, every other row holds the
    padding value. -/
theorem padRows_apply (x : (⟨2, ![50000, 128]⟩ : Shape).Idx → α) {u : Shape} (v : u.Idx → α)
    (hp : (⟨2, ![50000, 128]⟩ : Shape).Pads ![0, 0] ![176, 0] ![0, 0] ⟨2, ![50176, 128]⟩) (hu : 0 < u.numel)
    (j : Fin 50176) (d : Fin 128) :
    pad ⟨2, ![50176, 128]⟩ ![0, 0] ![176, 0] ![0, 0] x v hp hu (ix2 j d)
      = if h : j.val < 50000 then x (ix2 (⟨j.val, h⟩ : Fin 50000) d) else v (Shape.Idx.first hu) := by
  by_cases h : j.val < 50000
  · rw [dif_pos h]
    refine pad_apply_of_inside _ _ _ x v hp hu _ (ix2 (⟨j.val, h⟩ : Fin 50000) d) (Fin.forall_fin_two.mpr ⟨?_, ?_⟩)
    · show j.val = 0 + j.val * (0 + 1)
      omega
    · show d.val = 0 + d.val * (0 + 1)
      omega
  · rw [dif_neg h]
    refine pad_apply_of_not_inside _ _ _ x v hp hu _ (0 : Fin 2) ?_
    show ¬(0 ≤ j.val ∧ (j.val - 0) % 1 = 0 ∧ (j.val - 0) / 1 < 50000)
    omega

end ReadAtIndex

/-! ## The host stretch between the first and the second region, from any contents `W`

Each padded buffer is written by one operation of one stretch, from operands no earlier stretch writes; the stretches
after it leave it alone.  So after the whole stretch it holds that operation's value on `W`'s contents. -/

section Stretch
variable (W : Valuation τ sig (Elt Ideal))

/-- The buffers after the nine stretches of host operations between the first and the second region, run in order
    from contents `W`. -/
abbrev stretch : Valuation τ sig (Elt Ideal) :=
  StableHlo.after hostOps1_8 (StableHlo.after hostOps1_7 (StableHlo.after hostOps1_6 (StableHlo.after hostOps1_5
    (StableHlo.after hostOps1_4 (StableHlo.after hostOps1_3 (StableHlo.after hostOps1_2 (StableHlo.after hostOps1_1
      (StableHlo.after hostOps1 W))))))))

/-- The column words after the stretch: argument 4 padded with the integer zero, laid out as a column. -/
theorem stretch_v3_eq :
    (stretch W (Proc.devRef .tc main_v3) : S800768x1.Idx → BitVec 32)
      = shapeCast S800768x1 (pad S800768 ![0] ![768] ![0] (W (Proc.devRef .tc main_arg4) : S800000.Idx → BitVec 32)
          (constantI S_ 32 0#32) pads_S800000_S800768_07680 h_S_) shapeCasts_S800768_S800768x1 := by
  unfold stretch
  after_results
  simp only [StableHlo.TRef.ofBuf, StableHlo.TRef.toBuf, cast_eq, id]
  rfl

/-- The row words after the stretch: argument 3 padded with the integer zero, laid out as a row. -/
theorem stretch_v7_eq :
    (stretch W (Proc.devRef .tc main_v7) : S1x800768.Idx → BitVec 32)
      = shapeCast S1x800768 (pad S800768 ![0] ![768] ![0] (W (Proc.devRef .tc main_arg3) : S800000.Idx → BitVec 32)
          (constantI S_ 32 0#32) pads_S800000_S800768_07680 h_S_) shapeCasts_S800768_S1x800768 := by
  unfold stretch
  after_results
  simp only [StableHlo.TRef.ofBuf, StableHlo.TRef.toBuf, cast_eq, id]
  rfl

/-- The edge values after the stretch: argument 5 padded with the integer zero converted to a float, laid out as a
    column. -/
theorem stretch_v5_eq :
    (stretch W (Proc.devRef .tc main_v5) : S800768x1.Idx → EReal)
      = shapeCast S800768x1 (pad S800768 ![0] ![768] ![0] (W (Proc.devRef .tc main_arg5) : S800000.Idx → EReal)
          (sitofp (F := Ideal) .f32 (constantI S_ 32 0#32)) pads_S800000_S800768_07680 h_S_) shapeCasts_S800768_S800768x1 := by
  unfold stretch
  after_results
  simp only [StableHlo.TRef.ofBuf, StableHlo.TRef.toBuf, cast_eq, id]
  rfl

/-- The table after the stretch: the first region's result padded below with the integer zero converted to a float. -/
theorem stretch_v1_eq :
    (stretch W (Proc.devRef .tc main_v1) : S50176x128.Idx → EReal)
      = pad S50176x128 ![0, 0] ![176, 0] ![0, 0] (W (Proc.devRef .tc main_v0) : S50000x128.Idx → EReal)
          (sitofp (F := Ideal) .bf16 (constantI S_ 32 0#32)) pads_S50000x128_S50176x128_01760_000 h_S_ := by
  unfold stretch
  after_results
  simp only [StableHlo.TRef.ofBuf, StableHlo.TRef.toBuf, cast_eq, id]

/-- The integer zero converted to a float, as the one entry of a rank-zero tensor, is the float zero. -/
theorem zero_converted (φ : FTy) (i : S_.Idx) : (sitofp (F := Ideal) φ (constantI S_ 32 0#32) : S_.Idx → EReal) i = 0 := by
  show ((((0#32 : BitVec 32).toInt : ℤ) : ℝ) : EReal) = 0
  simp

/-- The column words: the argument's below 800000, the zero word from there on. -/
theorem stretch_v3 :
    (stretch W (Proc.devRef .tc main_v3) : S800768x1.Idx → BitVec 32)
      = Spec.colsPad (W (Proc.devRef .tc main_arg4)) := by
  rw [stretch_v3_eq]
  funext i
  rw [padEnd_col_apply]
  rfl

/-- The row words: the argument's below 800000, the zero word from there on. -/
theorem stretch_v7 :
    (stretch W (Proc.devRef .tc main_v7) : S1x800768.Idx → BitVec 32)
      = Spec.rowsPad (W (Proc.devRef .tc main_arg3)) := by
  rw [stretch_v7_eq]
  funext i
  rw [padEnd_row_apply]
  rfl

/-- The edge values: the argument's below 800000, zero from there on. -/
theorem stretch_v5 :
    (stretch W (Proc.devRef .tc main_v5) : S800768x1.Idx → EReal)
      = Spec.valsPad (W (Proc.devRef .tc main_arg5)) := by
  rw [stretch_v5_eq]
  funext i
  rw [padEnd_col_apply]
  unfold Spec.valsPad
  by_cases h : (i 0).val < 800000
  · rw [dif_pos h, dif_pos h]
  · rw [dif_neg h, dif_neg h]
    exact zero_converted .f32 _

/-- The table: the first region's result in the rows below 50000, zero rows from there on. -/
theorem stretch_v1 (j : Fin 50176) (d : Fin 128) :
    (stretch W (Proc.devRef .tc main_v1) : S50176x128.Idx → EReal) (ix2 j d)
      = (if h : j.val < 50000 then (W (Proc.devRef .tc main_v0) : S50000x128.Idx → EReal) (ix2 (⟨j.val, h⟩ : Fin 50000) d)
        else 0 : EReal) := by
  rw [stretch_v1_eq, padRows_apply]
  by_cases h : j.val < 50000
  · rw [dif_pos h, dif_pos h]
  · rw [dif_neg h, dif_neg h]
    exact zero_converted .bf16 _

end Stretch

/-! ## The second region's entry

Its entry contents are the stretch run from the first region's exit contents.  There the arguments are as launched
(the first region writes none of them) and the first region's result is what its write-backs leave. -/

section Entry
variable (m : (ℓ : Loc nD τ sig) → Buf (Elt Ideal) ℓ) (ρ : Dev nD → PrngReg)

/-- The first region reads its two operands through input windows and leaves them as launched. -/
theorem V0_arg0 (c : Dev nD) : V0 m ρ c main_arg0 = m ((c : Thread nD τ).loc main_arg0) := rfl
theorem V0_arg1 (c : Dev nD) : V0 m ρ c main_arg1 = m ((c : Thread nD τ).loc main_arg1) := rfl

/-- The edge lists are no array of the first region: at its exit they are as launched. -/
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)
theorem W1_arg5 (c : Dev nD) : W1 m ρ c (Proc.devRef .tc main_arg5) = m ((c : Thread nD τ).loc main_arg5) :=
  W1_of_ne m ρ c main_arg5 (by decide)

/-- The first region's result is its third array. -/
theorem W1_v0 (c : Dev nD) :
    W1 m ρ c (Proc.devRef .tc main_v0) = (dat0 (F := Ideal) (V0 m ρ) c).arrAt 2 cfg0.N :=
  W1_arr m ρ c 2

theorem V10_v3 (c : Dev nD) :
    (V10 m ρ c main_v3 : S800768x1.Idx → BitVec 32) = Spec.colsPad (m ((c : Thread nD τ).loc main_arg4)) :=
  (stretch_v3 (W1 m ρ c)).trans (congrArg Spec.colsPad (W1_arg4 m ρ c))

theorem V10_v5 (c : Dev nD) :
    (V10 m ρ c main_v5 : S800768x1.Idx → EReal) = Spec.valsPad (m ((c : Thread nD τ).loc main_arg5)) :=
  (stretch_v5 (W1 m ρ c)).trans (congrArg Spec.valsPad (W1_arg5 m ρ c))

theorem V10_v7 (c : Dev nD) :
    (V10 m ρ c main_v7 : S1x800768.Idx → BitVec 32) = Spec.rowsPad (m ((c : Thread nD τ).loc main_arg3)) :=
  (stretch_v7 (W1 m ρ c)).trans (congrArg Spec.rowsPad (W1_arg3 m ρ c))

theorem V10_v1 (c : Dev nD) (j : Fin 50176) (d : Fin 128) :
    (V10 m ρ c main_v1 : S50176x128.Idx → EReal) (ix2 j d)
      = (if h : j.val < 50000 then
          ((dat0 (F := Ideal) (V0 m ρ) c).arrAt 2 cfg0.N : S50000x128.Idx → EReal) (ix2 (⟨j.val, h⟩ : Fin 50000) d)
        else 0 : EReal) := by
  refine (stretch_v1 (W1 m ρ c) j d).trans ?_
  rw [W1_v0]

end Entry

end Cert.Hand.GluePads

end
-- ==== Proof.LibRowGather.lean ====
/-
  A gather of whole rows, read at an index.

  What `x[idx]` of a table `x : [N, D]` at a column of indices `idx : [E, 1]` lowers to: a `stablehlo.gather` with
  offset_dims `[1]`, collapsed_slice_dims `[0]`, start_index_map `[0]`, index_vector_dim `1` and slice sizes `[1, D]`.
  Element `(e, c)` of the result is the table's element `(r, c)`, where `r` is the start index `idx[e, 0]` read as a
  signed integer and clamped into `0 … N - 1`.

  The road is the one the library takes for a flat array (`gather_take_apply`): the operand index is, per operand axis,
  clamped start + batching coordinate + offset coordinate. On axis `0` (collapsed, named by the start index map) only the
  clamped start is left; on axis `1` (the offset axis) only the offset coordinate. The lemma is first proved for the
  dimension numbers written out (`rowDims`), then for any record whose fields have those values.
-/
import Idealize.ShloMosaic.PureOps.Ideal
import Idealize.ShloMosaic.Lib.ValueIdx

noncomputable section

namespace Cert.LibRowGather

open Idealize.ShloMosaic Idealize.ShloMosaic.ValueIdx

section RowGather
variable {α : Type}

/-- The row gather's dimension numbers written out, for a table `[N, D]`, start indices `[E, 1]` and result `[E, D]`.
    The start indices' batching axes `sb` are left open: the conditions `wf` force the list to be empty, and nothing
    below reads it. -/
abbrev rowDims (N E D : Nat) (sb : List (Fin (⟨2, ![E, 1]⟩ : Shape).rank))
    (wf : GatherDims.WF ⟨2, ![N, D]⟩ ⟨2, ![E, 1]⟩ ⟨2, ![E, D]⟩ [1] [0] [] [0] sb 1 ![1, D]) :
    GatherDims ⟨2, ![N, D]⟩ ⟨2, ![E, 1]⟩ ⟨2, ![E, D]⟩ where
  offsetDims := [1]
  collapsedSliceDims := [0]
  operandBatchingDims := []
  startIndicesBatchingDims := sb
  startIndexMap := [0]
  indexVectorDim := 1
  sliceSizes := ![1, D]
  wf := wf

variable {N E D w : Nat} (sb : List (Fin (⟨2, ![E, 1]⟩ : Shape).rank))
  (wf : GatherDims.WF ⟨2, ![N, D]⟩ ⟨2, ![E, 1]⟩ ⟨2, ![E, D]⟩ [1] [0] [] [0] sb 1 ![1, D])

/-- Where result element `(e, c)` reads its start index: the only component of the start index map is component `0`,
    the result's one batch axis (axis `0`) is the start indices' axis `0`, and the index vector's axis (axis `1`, of
    size one) gets the component's number, so the place is `[e, 0]`. -/
theorem rowDims_siIdx (e : Fin E) (c : Fin D) (h0 : (0 : Fin 2) ∈ (rowDims N E D sb wf).startIndexMap) :
    (rowDims N E D sb wf).siIdx (ix2 e c) ⟨List.idxOf (0 : Fin 2) (rowDims N E D sb wf).startIndexMap,
        List.idxOf_lt_length_iff.2 h0⟩ = ix2 e (0 : Fin 1) := by
  funext b
  refine Fin.ext ?_
  match b with
  | ⟨0, _⟩ => rfl
  | ⟨1, _⟩ => rfl

/-- Axis `0` of the operand index (the collapsed axis, named by the start index map): the start index clamped into
    `0 … N - 1`; no batching coordinate (there are no batching axes) and no offset (the axis is collapsed). -/
theorem rowDims_axis0 (idx : IVec (⟨2, ![E, 1]⟩ : Shape) w) (e : Fin E) (c : Fin D) :
    (rowDims N E D sb wf).start (ix2 e c) idx 0 + (rowDims N E D sb wf).batchCoord (ix2 e c) 0
        + (rowDims N E D sb wf).offCoord (ix2 e c) 0
      = min (idx (ix2 e (0 : Fin 1))).toInt.toNat (N - 1) := by
  have h0 : (0 : Fin 2) ∈ (rowDims N E D sb wf).startIndexMap := List.mem_singleton.mpr rfl
  rw [GatherDims.batchCoord_eq_zero _ _ _ List.not_mem_nil,
    GatherDims.offCoord_eq_zero _ _ _ (fun h => ((GatherDims.mem_sKept _ _).mp h).1 (List.mem_singleton.mpr rfl))]
  show (rowDims N E D sb wf).start (ix2 e c) idx 0 = _
  unfold GatherDims.start
  rw [dif_pos h0, rowDims_siIdx sb wf e c h0]
  rfl

/-- Axis `1` of the operand index (the one offset axis, not named by the start index map): the slice starts at `0`,
    there is no batching coordinate, and the offset is the result's coordinate on its offset axis, `c`. -/
theorem rowDims_axis1 (idx : IVec (⟨2, ![E, 1]⟩ : Shape) w) (e : Fin E) (c : Fin D) :
    (rowDims N E D sb wf).start (ix2 e c) idx 1 + (rowDims N E D sb wf).batchCoord (ix2 e c) 1
        + (rowDims N E D sb wf).offCoord (ix2 e c) 1
      = c.val := by
  have h10 : (1 : Fin 2) ≠ 0 := by decide
  have h1 : (1 : Fin 2) ∉ (rowDims N E D sb wf).startIndexMap := fun h => h10 (List.mem_singleton.mp h)
  have hk : (1 : Fin 2) ∈ (rowDims N E D sb wf).sKept :=
    (GatherDims.mem_sKept _ _).mpr ⟨fun h => h10 (List.mem_singleton.mp h), List.not_mem_nil⟩
  rw [GatherDims.batchCoord_eq_zero _ _ _ List.not_mem_nil, Nat.add_zero]
  unfold GatherDims.start GatherDims.offCoord
  rw [dif_neg h1, dif_pos hk, Nat.zero_add]
  rfl

/-- The row gather of the written-out dimension numbers, read at `(e, c)`. -/
theorem rowDims_apply (hN : 0 < N) (x : (⟨2, ![N, D]⟩ : Shape).Idx → α) (idx : IVec (⟨2, ![E, 1]⟩ : Shape) w)
    (e : Fin E) (c : Fin D) :
    Host.gather (rowDims N E D sb wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ => exact rowDims_axis0 sb wf idx e c
  | ⟨1, _⟩ => exact rowDims_axis1 sb wf idx e c

end RowGather

/-- THE ROW GATHER READ AT `(e, c)`: for any dimension-number record of the row-gather form, the operand at the row the
    start index `idx[e, 0]` names (signed, clamped into `0 … N - 1`) and the same column. -/
theorem rowGather_apply {α : Type} {N E D w : Nat} (hN : 0 < N)
    (g : GatherDims (⟨2, ![N, D]⟩ : Shape) (⟨2, ![E, 1]⟩ : Shape) (⟨2, ![E, D]⟩ : Shape))
    (hod : g.offsetDims = [1]) (hcs : g.collapsedSliceDims = [0]) (hob : g.operandBatchingDims = [])
    (hsm : g.startIndexMap = [0]) (hiv : g.indexVectorDim = 1) (hss : g.sliceSizes = ![1, D])
    (x : (⟨2, ![N, D]⟩ : Shape).Idx → α) (idx : IVec (⟨2, ![E, 1]⟩ : Shape) w) (e : Fin E) (c : Fin D) :
    Host.gather g x idx (ix2 e c)
      = x (ix2 (⟨min (idx (ix2 e (0 : Fin 1))).toInt.toNat (N - 1), by omega⟩ : Fin N) c) := by
  -- a record with these field values IS the written-out one: name its fields and substitute the six equations
  obtain ⟨od, cs, ob, sb, sm, iv, ss, wf⟩ := g
  dsimp only at hod hcs hob hsm hiv hss
  subst hod hcs hob hsm hiv hss
  exact rowDims_apply sb wf hN x idx e c

end Cert.LibRowGather

end
-- ==== Proof.LibRowsScatter.lean ====
/-
  A scatter-add of rows, read at an index, over the extended reals.

  What a segment sum of a MATRIX of updates `upd : [E, D]` at a column of indices `idx : [E, 1]` into an operand
  `x : [N, D]` lowers to: a `stablehlo.scatter` with an add body whose update window is the updates' second axis
  (update_window_dims `[1]`), whose operand row axis is inserted (inserted_window_dims `[0]`) and is the one axis
  the index vector addresses (scatter_dims_to_operand_dims `[0]`, index_vector_dim `1`): row `e` of the updates is
  added, whole, to row `idx[e, 0]` of the operand. Over the extended reals element `(v, c)` of the result is the
  operand's plus the sum of `upd[e, c]` over the positions `e` whose index `idx[e, 0]`, read as a signed integer
  and NOT clamped, is `v`: an update row whose signed index is no row of the operand is dropped.
-/
import Idealize.ShloMosaic.PureOps.Ideal
import Idealize.ShloMosaic.Lib.ValueIdx

noncomputable section

open scoped BigOperators

namespace Cert.LibRowsScatter

open Idealize.ShloMosaic Idealize.ShloMosaic.ValueIdx

/-! ## The coordinates of the landing index

For an update index `(e, c')`. The operand's row axis is inserted and addressed by the index vector: its window
coordinate is `0` and its window starts at the signed word `idx[e, 0]`. The operand's column axis is the image of the
updates' window axis and no index addresses it: its window starts at `0` and its window coordinate is the update's
column `c'`. Each fact is read off the record once its four lists are the stated literals. -/

section Coordinates

variable {N E D w : Nat}
  (s : ScatterDims (⟨2, ![N, D]⟩ : Shape) (⟨2, ![E, 1]⟩ : Shape) (⟨2, ![E, D]⟩ : Shape))
  (huw : s.updateWindowDims = [1]) (hiw : s.insertedWindowDims = [0])
  (hsd : s.scatterDimsToOperandDims = [0]) (hiv : s.indexVectorDim = 1)

include huw hiw hsd hiv

/-- On the operand's row axis the window starts at the signed index of the update's row. -/
theorem start_row (idx : IVec (⟨2, ![E, 1]⟩ : Shape) w) (e : Fin E) (c' : Fin D) :
    s.start (ix2 e c') idx 0 = (idx (ix2 e (0 : Fin 1))).toInt := by
  obtain ⟨uw, iw, sd, iv, wf⟩ := s
  subst huw hiw hsd hiv
  unfold ScatterDims.start
  rw [dif_pos (List.mem_singleton.mpr rfl)]
  refine congrArg (fun i => (idx i).toInt) ?_
  funext b
  refine Fin.ext ?_
  match b with
  | ⟨0, _⟩ => rfl
  | ⟨1, _⟩ => rfl

/-- On the operand's column axis, which no index addresses, the window starts at `0`. -/
theorem start_col (idx : IVec (⟨2, ![E, 1]⟩ : Shape) w) (e : Fin E) (c' : Fin D) :
    s.start (ix2 e c') idx 1 = 0 := by
  obtain ⟨uw, iw, sd, iv, wf⟩ := s
  subst huw hiw hsd hiv
  unfold ScatterDims.start
  exact dif_neg fun h => Nat.one_ne_zero (congrArg Fin.val (List.mem_singleton.mp h))

/-- The operand's row axis is inserted: its window coordinate is `0`. -/
theorem window_row (e : Fin E) (c' : Fin D) : s.window (ix2 e c') 0 = 0 := by
  obtain ⟨uw, iw, sd, iv, wf⟩ := s
  subst huw hiw hsd hiv
  rfl

/-- The operand's column axis carries the updates' window axis: its window coordinate is the update's column. -/
theorem window_col (e : Fin E) (c' : Fin D) : s.window (ix2 e c') 1 = c'.val := by
  obtain ⟨uw, iw, sd, iv, wf⟩ := s
  subst huw hiw hsd hiv
  rfl

/-! ## Where an update lands -/

/-- WHERE AN UPDATE LANDS: update index `(e, c')` lands on `(v, c)` exactly when the signed index of row `e` is `v`
    and the columns agree. Left to right the landing index exists, so the row start is nonnegative and its `toNat` is
    `v`, while the column coordinate is `c'` itself; right to left both coordinates are in range (`v < N`, `c < D`)
    and the index built from them is `(v, c)`. -/
theorem resultIdx?_eq_some_iff (idx : IVec (⟨2, ![E, 1]⟩ : Shape) w) (e : Fin E) (c' : Fin D) (v : Fin N)
    (c : Fin D) :
    s.resultIdx? (ix2 e c') idx = some (ix2 v c) ↔ (idx (ix2 e (0 : Fin 1))).toInt = (v.val : ℤ) ∧ c' = c := by
  have h0 := start_row s huw hiw hsd hiv idx e c'
  have h1 := start_col s huw hiw hsd hiv idx e c'
  have w0 := window_row s huw hiw hsd hiv e c'
  have w1 := window_col s huw hiw hsd hiv e c'
  unfold ScatterDims.resultIdx?
  constructor
  · intro h
    split at h
    · rename_i hr
      have hf := Option.some.inj h
      have e0 := congrArg Fin.val (congrFun hf 0)
      have e1 := congrArg Fin.val (congrFun hf 1)
      have r0 := (hr 0).1
      simp only [h0, h1, w0, w1] at e0 e1 r0
      change _ = v.val at e0
      change _ = c.val at e1
      exact ⟨by omega, Fin.ext (by omega)⟩
    · exact absurd h (by simp)
  · rintro ⟨hv, rfl⟩
    have hr : ∀ a, 0 ≤ s.start (ix2 e c') idx a + s.window (ix2 e c') a ∧
        s.start (ix2 e c') idx a + s.window (ix2 e c') a < (⟨2, ![N, D]⟩ : Shape).size a := by
      intro a
      match a with
      | ⟨0, _⟩ =>
        show 0 ≤ s.start (ix2 e c') idx 0 + s.window (ix2 e c') 0 ∧
          s.start (ix2 e c') idx 0 + s.window (ix2 e c') 0 < (N : ℤ)
        rw [h0, w0, hv]; have := v.isLt; omega
      | ⟨1, _⟩ =>
        show 0 ≤ s.start (ix2 e c') idx 1 + s.window (ix2 e c') 1 ∧
          s.start (ix2 e c') idx 1 + s.window (ix2 e c') 1 < (D : ℤ)
        rw [h1, w1]; have := c'.isLt; omega
    rw [dif_pos hr]
    refine congrArg some ?_
    funext a
    refine Fin.ext ?_
    match a with
    | ⟨0, _⟩ =>
      show (s.start (ix2 e c') idx 0 + s.window (ix2 e c') 0).toNat = v.val
      rw [h0, w0, hv]; omega
    | ⟨1, _⟩ =>
      show (s.start (ix2 e c') idx 1 + s.window (ix2 e c') 1).toNat = c'.val
      rw [h1, w1]; omega

end Coordinates

/-! ## The sum over the landing updates -/

/-- The sum of the updates that land on `(v, c)` is the sum over the update rows `e` of `upd[e, c]` guarded by "the
    signed index of `e` is `v`": the filtered sum is a sum of guarded terms over all update indices, that is the double
    sum over rows and columns; the guard is the landing condition, whose column half keeps the one column `c` of each
    row. -/
theorem sum_landing {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (idx : IVec (⟨2, ![E, 1]⟩ : Shape) w) (upd : (⟨2, ![E, D]⟩ : Shape).Idx → EReal) (v : Fin N) (c : Fin D) :
    (∑ j ∈ Finset.univ.filter (fun j => s.resultIdx? j idx = some (ix2 v c)), upd j)
      = ∑ e : Fin E, if (idx (ix2 e (0 : Fin 1))).toInt = (v.val : ℤ) then upd (ix2 e c) else 0 := by
  rw [Finset.sum_filter, sum_idx2]
  refine Finset.sum_congr rfl fun e _ => ?_
  have hg : ∀ c' : Fin D,
      (if s.resultIdx? (ix2 e c') idx = some (ix2 v c) then upd (ix2 e c') else 0)
        = if c' = c then (if (idx (ix2 e (0 : Fin 1))).toInt = (v.val : ℤ) then upd (ix2 e c') else 0) else 0 := by
    intro c'
    have hl := resultIdx?_eq_some_iff s huw hiw hsd hiv idx e c' v c
    by_cases hc : c' = c
    · rw [if_pos hc]
      exact if_congr (hl.trans (and_iff_left hc)) rfl rfl
    · rw [if_neg hc, if_neg fun h => hc (hl.mp h).2]
  rw [Finset.sum_congr rfl fun c' _ => hg c', Finset.sum_ite_eq' Finset.univ c, if_pos (Finset.mem_univ c)]

/-- THE SCATTER-ADD OF ROWS READ AT `(v, c)`: for any dimension-number record of the row segment-sum form, the
    operand's element plus the sum over the update rows `e` whose signed index is `v` of the update's element
    `(e, c)`. -/
theorem rowsScatterAdd_apply {φ : FTy} {N E D w : Nat}
    (s : ScatterDims (⟨2, ![N, D]⟩ : Shape) (⟨2, ![E, 1]⟩ : Shape) (⟨2, ![E, D]⟩ : Shape))
    (huw : s.updateWindowDims = [1]) (hiw : s.insertedWindowDims = [0])
    (hsd : s.scatterDimsToOperandDims = [0]) (hiv : s.indexVectorDim = 1)
    (x : FVec Ideal (⟨2, ![N, D]⟩ : Shape) φ) (idx : IVec (⟨2, ![E, 1]⟩ : Shape) w)
    (upd : FVec Ideal (⟨2, ![E, D]⟩ : Shape) φ) (v : Fin N) (c : Fin D) :
    Host.scatterAdd s x idx upd (ix2 v c)
      = x (ix2 v c) + ∑ e : Fin E, if (idx (ix2 e (0 : Fin 1))).toInt = (v.val : ℤ) then upd (ix2 e c) else 0 := by
  exact congrArg (x (ix2 v c) + ·) (sum_landing s huw hiw hsd hiv idx upd v c)

end Cert.LibRowsScatter

end
-- ==== Proof.RefValue.lean ====
/-
  The reference computation run, with its result named entry by entry.

  The reference is a straight line of array operations: the dense product  h = x · w ; the column words wrapped (a
  negative word moved up by 50000); the table whose row e is the row of h that edge e's wrapped column word names (the
  word read signed and clamped into 0 … 49999); the messages, row e of that table scaled by the edge's value; the
  messages added into the zero array, each at the row its edge's row word names (read signed); and the bias row added
  to every row.  Read at entry (r, d) this is

      (∑ over the edges e whose row word is r of  vals e · h[row named by cols e, d])  +  bias d ,

  which is `Spec.refOut`.  The zero array contributes  0 + sum = sum.

  Order of the file: the index spellings of the two small libraries identified; each spreading of a vector, column, row
  or scalar over a larger array read at an entry; the wrapped column word of an edge; the gathered row of the product;
  the whole value at (r, d) and as an array; the run.
-/
import proofs.«422335_j38611755991786_1_alg».proof.Proof.Gen.ReferenceIdeal.Run
import proofs.«422335_j38611755991786_1_alg».proof.Proof.Gen.ReferenceIdeal.Read
import proofs.«422335_j38611755991786_1_alg».proof.Proof.Spec
import proofs.«422335_j38611755991786_1_alg».proof.Proof.LibPlainDot
import proofs.«422335_j38611755991786_1_alg».proof.Proof.LibRowGather
import proofs.«422335_j38611755991786_1_alg».proof.Proof.LibRowsScatter
import Idealize.ShloMosaic.Lib.StableHlo.Predicate
import Idealize.ShloMosaic.Lib.ValueIdx
import Idealize.ShloMosaic.PureOps.Ideal.Laws

noncomputable section

namespace Cert.Hand.RefValue

open Cert.ReferenceIdeal Cert.ReferenceIdeal.Gen Idealize.ShloMosaic Idealize.ShloMosaic.TcCoe Idealize.SL.Sem
open Idealize.ShloMosaic.StableHlo Idealize.ShloMosaic.ValueIdx Idealize.ShloMosaic.StableHlo.Predicate

/-! ## Two spellings of the same indices -/

/-- Entry (p, q) of a rectangle, in either spelling. -/
theorem ij_eq_ix2 {n m : Nat} (p : Fin n) (q : Fin m) : ij p q = ix2 p q := by
  funext a; match a with | ⟨0, _⟩ => rfl | ⟨1, _⟩ => rfl

/-- Row p of a one-column array, in either spelling. -/
theorem ixP_eq_ix2 {n : Nat} (p : Fin n) : ixP p = ix2 p (0 : Fin 1) := by
  funext a; match a with | ⟨0, _⟩ => rfl | ⟨1, _⟩ => rfl

/-- Column q of a one-row array, in either spelling. -/
theorem i1q_eq_ix2 {m : Nat} (q : Fin m) : i1q q = ix2 (0 : Fin 1) q := by
  funext a; match a with | ⟨0, _⟩ => rfl | ⟨1, _⟩ => rfl

/-- Position p of a vector, in either spelling. -/
theorem ofFin_eq_ix1 {n : Nat} (p : Fin n) : (Shape.Idx.ofFin p : (⟨1, ![n]⟩ : Shape).Idx) = ix1 p := by
  funext a; match a with | ⟨0, _⟩ => rfl

/-! ## Spreading a smaller array over a larger one, read at an entry -/

/-- A vector as a column, at row e: the vector's entry e. -/
theorem col_of_vec {α : Type} {n : Nat} (h : (⟨1, ![n]⟩ : Shape).BroadcastsInDim ⟨2, ![n, 1]⟩ ![0])
    (v : (⟨1, ![n]⟩ : Shape).Idx → α) (e : Fin n) :
    broadcastInDim ⟨2, ![n, 1]⟩ ![0] h v (ix2 e (0 : Fin 1)) = v (ix1 e) := by
  rw [← ixP_eq_ix2, bcast_col1, ofFin_eq_ix1]

/-- A column spread over the columns of a rectangle, at (e, d): the column's row e. -/
theorem rect_of_col {α : Type} {n m : Nat} (h : (⟨2, ![n, 1]⟩ : Shape).BroadcastsInDim ⟨2, ![n, m]⟩ ![0, 1])
    (v : (⟨2, ![n, 1]⟩ : Shape).Idx → α) (e : Fin n) (d : Fin m) :
    broadcastInDim ⟨2, ![n, m]⟩ ![0, 1] h v (ix2 e d) = v (ix2 e (0 : Fin 1)) := by
  rw [← ij_eq_ix2, bcast_of_col, ixP_eq_ix2]

/-- A row spread over the rows of a rectangle, at (r, d): the row's column d. -/
theorem rect_of_row {α : Type} {n m : Nat} (h : (⟨2, ![1, m]⟩ : Shape).BroadcastsInDim ⟨2, ![n, m]⟩ ![0, 1])
    (v : (⟨2, ![1, m]⟩ : Shape).Idx → α) (r : Fin n) (d : Fin m) :
    broadcastInDim ⟨2, ![n, m]⟩ ![0, 1] h v (ix2 r d) = v (ix2 (0 : Fin 1) d) := by
  rw [← ij_eq_ix2, bcast_of_row, i1q_eq_ix2]

/-- A scalar spread over any shape reads the scalar everywhere. -/
theorem of_scalar {α : Type} {t : Shape} (h : (⟨0, ![]⟩ : Shape).BroadcastsInDim t ![])
    (v : (⟨0, ![]⟩ : Shape).Idx → α) (j : t.Idx) :
    broadcastInDim t ![] h v j = v ix0 := by
  simp only [broadcastInDim]
  congr 1
  funext a
  exact Fin.elim0 a

/-! ## The stages that pick rows by the values of index words -/

/-- Row e of the column of wrapped column words: the edge's column word, moved up by 50000 when it is negative. The
    comparison, the sum and the choice are entry by entry, and the two constants are the same at every entry. -/
theorem wrapped_col (h0 : S_.BroadcastsInDim S800000 (![] : Fin 0 → Fin S800000.rank))
    (h1 : S800000.BroadcastsInDim S800000x1 (![0] : Fin 1 → Fin S800000x1.rank))
    (c : IVec S800000 32) (e : Fin 800000) :
    broadcastInDim S800000x1 ![0] h1
        (select (cmpi .slt c (broadcastInDim S800000 ![] h0 (constantI S_ 32 0#32)))
          (addi c (broadcastInDim S800000 ![] h0 (constantI S_ 32 50000#32))) c) (ix2 e (0 : Fin 1))
      = Scalar.select (IntOp.cmpi .slt (c (ix1 e)) 0#32) (IntOp.addi (c (ix1 e)) 50000#32) (c (ix1 e)) := by
  rw [col_of_vec]
  rfl

/-- A row of the product x · w picked by a start word, at (e, d): when row e of the start column is the word `wd`, the
    entry is the product's entry (row named by `wd`: read signed, clamped into 0 … 49999; column d), that is the sum over
    k of x (row, k) · w (k, d). -/
theorem gathered_product (x : FVec Ideal S50000x128 .f32) (w : FVec Ideal S128x128 .f32) (idx : IVec S800000x1 32)
    (e : Fin 800000) (d : Fin 128) (wd : BitVec 32) (hw : idx (ix2 e (0 : Fin 1)) = wd) :
    Host.gather gather_S50000x128_S800000x1_S800000x128_1_0_n_n_0_1_1128
        (Host.dotGeneral dot_S50000x128_S128x128_S50000x128_1_0_0_1_n_n none x w) idx (ix2 e d)
      = Spec.dense x w ⟨min wd.toInt.toNat (50000 - 1), by omega⟩ d := by
  subst hw
  rw [Cert.LibRowGather.rowGather_apply (by decide) _ rfl rfl rfl rfl rfl rfl]
  exact Idealize.ShloMosaic.PlainDot.IsPlain.dotGeneral_apply ⟨rfl, rfl, rfl, rfl, rfl, rfl⟩ none .single x w _ d

/-! ## The whole value -/

/-- THE REFERENCE'S VALUE AT (r, d). Outermost first: the sum with the bias row; the bias row spread over the rows; the
    accumulation into the zero array (0 + sum = sum) of the messages whose row word is r; and, for each edge e, its row
    word, its value, and the row of the product its wrapped column word names. -/
theorem value_apply (x0 : FVec Ideal S50000x128 .f32) (x1 : FVec Ideal S128x128 .f32) (x2 : FVec Ideal S1x128 .f32)
    (x3 x4 : IVec S800000 32) (x5 : FVec Ideal S800000 .f32) (r : Fin 50000) (d : Fin 128) :
    Read.val_main_v15 (F := Ideal) x0 x1 x2 x3 x4 x5 (ix2 r d) = Spec.refOut x0 x1 x2 x3 x4 x5 r d := by
  rw [← Read.val_main_v15_eq, addf_apply, rect_of_row, Cert.LibRowsScatter.rowsScatterAdd_apply _ rfl rfl rfl rfl, of_scalar,
    constant_apply, Ideal.ofBits_zero_f32, zero_add]
  unfold Spec.refOut
  refine congrArg (fun s => s + x2 (ix2 (0 : Fin 1) d)) ?_
  refine Finset.sum_congr rfl fun e _ => ?_
  rw [col_of_vec, mulf_apply, rect_of_col, col_of_vec,
    gathered_product x0 x1 _ e d _ (wrapped_col bcast_S_S800000 bcast_S800000_S800000x1_0 x4 e)]
  rfl

/-- The same, as an equation between arrays. -/
theorem value_eq (x0 : FVec Ideal S50000x128 .f32) (x1 : FVec Ideal S128x128 .f32) (x2 : FVec Ideal S1x128 .f32)
    (x3 x4 : IVec S800000 32) (x5 : FVec Ideal S800000 .f32) :
    Read.val_main_v15 (F := Ideal) x0 x1 x2 x3 x4 x5
      = fun i : S50000x128.Idx => Spec.refOut x0 x1 x2 x3 x4 x5 ⟨(i 0).val, idx2_lt0 i⟩ ⟨(i 1).val, idx2_lt1 i⟩ := by
  funext i
  obtain ⟨r, d, rfl⟩ : ∃ (r : Fin 50000) (d : Fin 128), i = ix2 r d := ⟨i 0, i 1, eq_ix2 i⟩
  exact value_apply x0 x1 x2 x3 x4 x5 r d

/-! ## The run -/

/-- Every weakly fair execution of the reference terminates with its result the direct arrangement `Spec.refOut` of its
    own arguments, entry by entry, and its arguments unchanged. -/
theorem run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v15)
        = (fun i : Cert.ReferenceIdeal.S50000x128.Idx => Spec.refOut
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5))
            ⟨(i 0).val, idx2_lt0 i⟩ ⟨(i 1).val, idx2_lt1 i⟩)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  (θ_run (Cert.ReferenceIdeal.defs (F := Ideal)) _ _).mono
    (fun _ h c => ⟨(h c).1.trans ((Read.val_main_v15_eq _ _ _ _ _ _).trans (value_eq _ _ _ _ _ _)), (h c).2⟩)
    (Cert.ReferenceIdeal.Value.run (F := Ideal) m' ρ')

end Cert.Hand.RefValue

end
-- ==== Proof.PreDecode.lean ====
/-
  The precondition's two tests on the column words, read back.

  The precondition is a conjunction of six "every entry passes" tests; each is a fold by "and", started at 1, over the
  bits of an entrywise comparison.  A conjunction of bits that is 1 has every bit 1, and a fold by "and" that came out 1
  met only 1s, so each entrywise comparison holds at every entry.  The last two tests compare each column word, read
  signed, with 0 (from above) and with 50000 (from below): every column word is a node number.
-/
import proofs.«422335_j38611755991786_1_alg».proof.Pre_finite_inputs
import Idealize.ShloMosaic.Lib.ReduceAll
import Idealize.ShloMosaic.Lib.ValueIdx

noncomputable section

namespace Cert.Hand.PreDecode

open Idealize.ShloMosaic Idealize.ShloMosaic.ValueIdx

/-- The scalar shape has no axes, hence one index. -/
instance subsingleton_scalar_idx : Subsingleton Cert.Pre_finite_inputs.S_.Idx := ⟨fun a b => funext fun d => d.elim0⟩

/-- The two literals the column words are compared with, read signed. -/
theorem toInt_zero32 : (0#32 : BitVec 32).toInt = 0 := by decide
theorem toInt_50000 : (50000#32 : BitVec 32).toInt = 50000 := by decide

/-- The tail of the precondition (its last three tests, joined to whatever bit the first three gave): when it is 1, every
    column word lies in [0, 50000) signed. -/
theorem tail_in_range [Cert.Pre_finite_inputs.Facts] (a4 : IVec Cert.Pre_finite_inputs.S800000 32)
    (v13 : IVec Cert.Pre_finite_inputs.S_ 1) (v16 : IVec Cert.Pre_finite_inputs.S800000 1)
    (h : Cert.Pre_finite_inputs.fn_part1 (F := Ideal) a4 v13 v16 ix0 = 1#1) (i : Cert.Pre_finite_inputs.S800000.Idx) :
    0 ≤ (a4 i).toInt ∧ (a4 i).toInt < 50000 := by
  dsimp only [Cert.Pre_finite_inputs.fn_part1] at h
  -- the conjunction of bits is 1: so is each of its last two members
  obtain ⟨h12, hlt⟩ := IntOp.andi_eq_one.1 h
  obtain ⟨-, hge⟩ := IntOp.andi_eq_one.1 h12
  -- each member is a fold by "and" over all entries: the comparison holds at entry i
  have hge_i := Host.reduce_andi_all _ _ _ _ _ hge i
  have hlt_i := Host.reduce_andi_all _ _ _ _ _ hlt i
  -- at an entry the comparison is the scalar one, of the word with the literal (a scalar laid out along the axis)
  have hge' : IntOp.cmpi .sge (a4 i) 0#32 = 1#1 := hge_i
  have hlt' : IntOp.cmpi .slt (a4 i) 50000#32 = 1#1 := hlt_i
  refine ⟨?_, ?_⟩
  · have hz := IntOp.cmpi_sge.1 hge'
    rwa [toInt_zero32] at hz
  · have hz := IntOp.cmpi_slt.1 hlt'
    rwa [toInt_50000] at hz

/-- What the precondition says of the column words: when it holds, every column word, read signed, is a node number
    0 … 49999. -/
theorem cols_in_range [Cert.Pre_finite_inputs.Facts] (a0 : FVec Ideal Cert.Pre_finite_inputs.S50000x128 .f32)
    (a1 : FVec Ideal Cert.Pre_finite_inputs.S128x128 .f32) (a2 : FVec Ideal Cert.Pre_finite_inputs.S1x128 .f32)
    (a3 a4 : IVec Cert.Pre_finite_inputs.S800000 32) (a5 : FVec Ideal Cert.Pre_finite_inputs.S800000 .f32)
    (h : Cert.Pre_finite_inputs.fn (F := Ideal) a0 a1 a2 a3 a4 a5 = fun _ => 1#1) (e : Fin 800000) :
    0 ≤ (a4 (ix1 e)).toInt ∧ (a4 (ix1 e)).toInt < 50000 := by
  have h0 : Cert.Pre_finite_inputs.fn (F := Ideal) a0 a1 a2 a3 a4 a5 ix0 = 1#1 := congrFun h ix0
  -- the precondition is its tail applied to the bit of the first three tests and the fourth test's entrywise bits
  exact tail_in_range a4 _ _ h0 (ix1 e)

end Cert.Hand.PreDecode

end
-- ==== Proof.lean ====
/-
  The certificate of the graph convolution  out = segment_sum(vals · (x·w)[cols], rows) + bias.

  The kernel's program does it in three tiled passes over padded arrays: the dense product x·w in row blocks; the
  per-edge messages, each looked up by comparing the edge's column word with every table row number, block of rows
  by block of rows, into an accumulator; the per-node sums, each node's edges selected by comparing the row words with
  the node's number, block of edges by block of edges, into an accumulator, the bias row added after the last
  block; and a final slice that drops the padded node rows.  The reference reads the table row at the column word
  directly and adds each message to the row the row word names.

  What is proved by hand: each pass's result array as one function of the arrays the pass finds (Region0, Region1,
  Region2), the arrays each pass finds as functions of the arguments (GluePads, GlueTail), hence the program's result
  as `Spec.kernelOut` of the arguments; the reference's result as `Spec.refOut` of the arguments (RefValue); that
  the precondition makes every column word a node number (PreDecode); and that under it the two functions agree
  (Bridge): sums over the extended reals re-indexed, 0 · x = 0 and 1 · x = x for every extended real, no finiteness
  used.  The frames are the generated ones; the idealization rewrote nothing.
-/
import proofs.«422335_j38611755991786_1_alg».proof.Defs
import proofs.«422335_j38611755991786_1_alg».proof.Proof.Gen.Kernel
import proofs.«422335_j38611755991786_1_alg».proof.Proof.Gen.Kernel.Skeleton
import proofs.«422335_j38611755991786_1_alg».proof.Proof.Gen.Kernel.Launch
import proofs.«422335_j38611755991786_1_alg».proof.Proof.Gen.Kernel.Points
import proofs.«422335_j38611755991786_1_alg».proof.Proof.Gen.Kernel.Frame
import proofs.«422335_j38611755991786_1_alg».proof.Proof.Gen.KernelIdeal
import proofs.«422335_j38611755991786_1_alg».proof.Proof.Gen.KernelIdeal.Skeleton
import proofs.«422335_j38611755991786_1_alg».proof.Proof.Gen.KernelIdeal.Launch
import proofs.«422335_j38611755991786_1_alg».proof.Proof.Gen.KernelIdeal.Points
import proofs.«422335_j38611755991786_1_alg».proof.Proof.Gen.KernelIdeal.Frame
import proofs.«422335_j38611755991786_1_alg».proof.Proof.Gen.ReferenceIdeal
import proofs.«422335_j38611755991786_1_alg».proof.Proof.Gen.Pre_finite_inputs
import proofs.«422335_j38611755991786_1_alg».proof.Proof.Spec
import proofs.«422335_j38611755991786_1_alg».proof.Proof.Bridge
import proofs.«422335_j38611755991786_1_alg».proof.Proof.Region0
import proofs.«422335_j38611755991786_1_alg».proof.Proof.Region1
import proofs.«422335_j38611755991786_1_alg».proof.Proof.Region2
import proofs.«422335_j38611755991786_1_alg».proof.Proof.KernelRun
import proofs.«422335_j38611755991786_1_alg».proof.Proof.GlueTail
import proofs.«422335_j38611755991786_1_alg».proof.Proof.GluePads
import proofs.«422335_j38611755991786_1_alg».proof.Proof.RefValue
import proofs.«422335_j38611755991786_1_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem
open Cert.Hand

section KernelValue
open Cert.KernelIdeal Cert.KernelIdeal.Gen

variable (m : (ℓ : Loc nD τ sig) → Buf (Elt Ideal) ℓ) (ρ : Dev nD → PrngReg)

/-- A padded row of the table is zero. -/
theorem densePad_pad (x : Spec.SNxD.Idx → EReal) (w : Spec.SDxD.Idx → EReal) (j : Fin 50176) (d : Fin 128)
    (h : ¬ j.val < 50000) : Spec.densePad x w (ix2 j d) = 0 := by
  unfold Spec.densePad
  exact dif_neg h

/-- The table the second pass finds is the dense product padded with zero rows. -/
theorem table_eq (c : Dev nD) :
    (V10 m ρ c main_v1 : S50176x128.Idx → EReal)
      = Spec.densePad (m ((c : Thread nD τ).loc main_arg0)) (m ((c : Thread nD τ).loc main_arg1)) := by
  funext i
  obtain ⟨j, q, rfl⟩ : ∃ (j : Fin 50176) (q : Fin 128), i = ix2 j q := ⟨i 0, i 1, eq_ix2 i⟩
  rw [GluePads.V10_v1 m ρ c j q]
  by_cases h : j.val < 50000
  · rw [dif_pos h, Region0.value (V0 m ρ) c ⟨j.val, h⟩ q, GluePads.V0_arg0 m ρ c, GluePads.V0_arg1 m ρ c]
    exact (Bridge.densePad_real _ _ j q h).symm
  · rw [dif_neg h]
    exact (densePad_pad _ _ j q h).symm

/-- The messages the third pass finds are the comparison sums over the padded arrays. -/
theorem msgs_eq (c : Dev nD) :
    (V11 m ρ c main_v8 : S800768x128.Idx → EReal)
      = Spec.msgsPad (m ((c : Thread nD τ).loc main_arg0)) (m ((c : Thread nD τ).loc main_arg1))
          (m ((c : Thread nD τ).loc main_arg4)) (m ((c : Thread nD τ).loc main_arg5)) := by
  funext i
  obtain ⟨e, q, rfl⟩ : ∃ (e : Fin 800768) (q : Fin 128), i = ix2 e q := ⟨i 0, i 1, eq_ix2 i⟩
  rw [GlueTail.V11_v8 m ρ c, Region1.value (V10 m ρ) c e q, GluePads.V10_v3 m ρ c, GluePads.V10_v5 m ρ c, table_eq m ρ c]
  rfl

/-- The program's result, entry by entry, is the tiled arrangement of the arguments. -/
theorem kernel_value (c : Dev nD) (r : Fin 50000) (d : Fin 128) :
    (W13 m ρ c (Proc.devRef .tc main_v10) : S50000x128.Idx → EReal) (ix2 r d)
      = Spec.kernelOut (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) r d := by
  rw [GlueTail.v10_apply m ρ c r d, Region2.value (V11 m ρ) c _ d, GlueTail.V11_v7 m ρ c, GluePads.V10_v7 m ρ c,
    GlueTail.V11_arg2 m ρ c, msgs_eq m ρ c]
  rfl

end KernelValue

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (RefValue.run m ρ)

theorem algebraic : Cert.algebraic_KernelIdeal_ReferenceIdeal := by
  intro m ρ m' ρ' hpre hagree
  refine ⟨fun c => Cert.KernelIdeal.Gen.W13 m ρ c (Proc.devRef .tc Cert.KernelIdeal.main_v10),
    KernelRun.run_v10 (F := Ideal) m ρ, ?_⟩
  refine (θ_run Cert.ReferenceIdeal.defs _ _).mono (fun _ h c => ⟨(h c).1.trans ?_, (h c).2⟩)
    (RefValue.run m' ρ')
  funext i
  obtain ⟨r, d, rfl⟩ : ∃ (r : Fin 50000) (d : Fin 128), i = ix2 r d := ⟨i 0, i 1, eq_ix2 i⟩
  rw [(hagree c).1, (hagree c).2.1, (hagree c).2.2.1, (hagree c).2.2.2.1, (hagree c).2.2.2.2.1, (hagree c).2.2.2.2.2]
  refine Eq.trans ?_ (kernel_value m ρ c r d).symm
  exact (Bridge.kernelOut_eq_refOut _ _ _ _ _ _
    (fun e => PreDecode.cols_in_range _ _ _ _ _ _ (hpre c) e) r d).symm

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
